-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S40000x128 : Shape := ⟨2, ![40000, 128]⟩
abbrev S2x640000 : Shape := ⟨2, ![2, 640000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S40000x128 : S_.BroadcastsInDim S40000x128 (![] : Fin 0 → Fin S40000x128.rank)
  reducesTo_S40000x128_S_d0_1 : S40000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg8 : FVec F S128x64 .f32) (main_arg9 : FVec F S64 .f32) (main_v33 : IVec S_ 1) : IVec S_ 1 :=
  let main_v34 : FVec F S128x64 .f32 := Host.absf main_arg8
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  main_v43

def fn_part1 {F : FTy → Type} [FloatOps F] (main_arg5 : FVec F S128x128 .f32) (main_arg6 : FVec F S128x128 .f32) (main_arg7 : FVec F S128 .f32) (main_arg8 : FVec F S128x64 .f32) (main_arg9 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_v33

def fn {F : FTy → Type} [FloatOps F] (main_arg0 : FVec F S40000x128 .f32) (main_arg1 : IVec S2x640000 32) (main_arg2 : FVec F S128x128 .f32) (main_arg3 : FVec F S128x128 .f32) (main_arg4 : FVec F S128 .f32) (main_arg5 : FVec F S128x128 .f32) (main_arg6 : FVec F S128x128 .f32) (main_arg7 : FVec F S128 .f32) (main_arg8 : FVec F S128x64 .f32) (main_arg9 : FVec F S64 .f32) : IVec S_ 1 :=
  let main_v0 : FVec F S40000x128 .f32 := Host.absf main_arg0
  let main_cst : FVec F S_ .f32 := constant S_ .f32 0x7F800000#32
  let main_v1 : FVec F S40000x128 .f32 := broadcastInDim S40000x128 ![] bcast_S_S40000x128 main_cst
  let main_v2 : IVec S40000x128 1 := cmpf .olt main_v0 main_v1
  let main_c : IVec S_ 1 := constantI S_ 1 1#1
  let main_v3 : IVec S_ 1 := (fun x v => Host.reduce IntOp.andi x v reducesTo_S40000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_v13 main_v16
-- ==== Kernel.lean ====
abbrev S40000x128 : Shape := ⟨2, ![40000, 128]⟩
abbrev S2x640000 : Shape := ⟨2, ![2, 640000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S40000 : Shape := ⟨1, ![40000]⟩
abbrev S40000x1 : Shape := ⟨2, ![40000, 1]⟩
abbrev S1x128 : Shape := ⟨2, ![1, 128]⟩
abbrev S2000x128 : Shape := ⟨2, ![2000, 128]⟩
abbrev S1x64 : Shape := ⟨2, ![1, 64]⟩
abbrev S40000x64 : Shape := ⟨2, ![40000, 64]⟩
abbrev S2000x64 : Shape := ⟨2, ![2000, 64]⟩

abbrev nBuf : Space → Nat
  | .hbm => 70
  | .vmem => 24
  | .smem => 0
  | _ => 0

abbrev bufTy : (tb : Table) → Fin (tcTables nBuf tb) → BufTy
  | .hbm, ⟨0, _⟩ => ⟨S40000x128, .f32⟩
  | .hbm, ⟨1, _⟩ => ⟨S2x640000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128x64, .f32⟩
  | .hbm, ⟨9, _⟩ => ⟨S64, .f32⟩
  | .hbm, ⟨10, _⟩ => ⟨S1x640000, .i32⟩
  | .hbm, ⟨11, _⟩ => ⟨S640000, .i32⟩
  | .hbm, ⟨12, _⟩ => ⟨S1x640000, .i32⟩
  | .hbm, ⟨13, _⟩ => ⟨S640000, .i32⟩
  | .hbm, ⟨14, _⟩ => ⟨S_, .i32⟩
  | .hbm, ⟨15, _⟩ => ⟨S640000, .i32⟩
  | .hbm, ⟨16, _⟩ => ⟨S640000, .i1⟩
  | .hbm, ⟨17, _⟩ => ⟨S_, .i32⟩
  | .hbm, ⟨18, _⟩ => ⟨S640000, .i32⟩
  | .hbm, ⟨19, _⟩ => ⟨S640000, .i32⟩
  | .hbm, ⟨20, _⟩ => ⟨S640000, .i32⟩
  | .hbm, ⟨21, _⟩ => ⟨S640000x1, .i32⟩
  | .hbm, ⟨22, _⟩ => ⟨S640000x128, .f32⟩
  | .hbm, ⟨23, _⟩ => ⟨S_, .f32⟩
  | .hbm, ⟨24, _⟩ => ⟨S40000x128, .f32⟩
  | .hbm, ⟨25, _⟩ => ⟨S640000x1, .i32⟩
  | .hbm, ⟨26, _⟩ => ⟨S40000x128, .f32⟩
  | .hbm, ⟨27, _⟩ => ⟨S_, .f32⟩
  | .hbm, ⟨28, _⟩ => ⟨S640000, .f32⟩
  | .hbm, ⟨29, _⟩ => ⟨S_, .f32⟩
  | .hbm, ⟨30, _⟩ => ⟨S40000, .f32⟩
  | .hbm, ⟨31, _⟩ => ⟨S640000x1, .i32⟩
  | .hbm, ⟨32, _⟩ => ⟨S40000, .f32⟩
  | .hbm, ⟨33, _⟩ => ⟨S_, .f32⟩
  | .hbm, ⟨34, _⟩ => ⟨S40000, .f32⟩
  | .hbm, ⟨35, _⟩ => ⟨S40000, .f32⟩
  | .hbm, ⟨36, _⟩ => ⟨S40000x1, .f32⟩
  | .hbm, ⟨37, _⟩ => ⟨S40000x128, .f32⟩
  | .hbm, ⟨38, _⟩ => ⟨S40000x128, .f32⟩
  | .hbm, ⟨39, _⟩ => ⟨S1x128, .f32⟩
  | .hbm, ⟨40, _⟩ => ⟨S40000x128, .f32⟩
  | .hbm, ⟨41, _⟩ => ⟨S_, .i32⟩
  | .hbm, ⟨42, _⟩ => ⟨S640000, .i32⟩
  | .hbm, ⟨43, _⟩ => ⟨S640000, .i1⟩
  | .hbm, ⟨44, _⟩ => ⟨S_, .i32⟩
  | .hbm, ⟨45, _⟩ => ⟨S640000, .i32⟩
  | .hbm, ⟨46, _⟩ => ⟨S640000, .i32⟩
  | .hbm, ⟨47, _⟩ => ⟨S640000, .i32⟩
  | .hbm, ⟨48, _⟩ => ⟨S640000x1, .i32⟩
  | .hbm, ⟨49, _⟩ => ⟨S640000x128, .f32⟩
  | .hbm, ⟨50, _⟩ => ⟨S_, .f32⟩
  | .hbm, ⟨51, _⟩ => ⟨S40000x128, .f32⟩
  | .hbm, ⟨52, _⟩ => ⟨S640000x1, .i32⟩
  | .hbm, ⟨53, _⟩ => ⟨S40000x128, .f32⟩
  | .hbm, ⟨54, _⟩ => ⟨S_, .f32⟩
  | .hbm, ⟨55, _⟩ => ⟨S640000, .f32⟩
  | .hbm, ⟨56, _⟩ => ⟨S_, .f32⟩
  | .hbm, ⟨57, _⟩ => ⟨S40000, .f32⟩
  | .hbm, ⟨58, _⟩ => ⟨S640000x1, .i32⟩
  | .hbm, ⟨59, _⟩ => ⟨S40000, .f32⟩
  | .hbm, ⟨60, _⟩ => ⟨S_, .f32⟩
  | .hbm, ⟨61, _⟩ => ⟨S40000, .f32⟩
  | .hbm, ⟨62, _⟩ => ⟨S40000, .f32⟩
  | .hbm, ⟨63, _⟩ => ⟨S40000x1, .f32⟩
  | .hbm, ⟨64, _⟩ => ⟨S40000x128, .f32⟩
  | .hbm, ⟨65, _⟩ => ⟨S40000x128, .f32⟩
  | .hbm, ⟨66, _⟩ => ⟨S1x128, .f32⟩
  | .hbm, ⟨67, _⟩ => ⟨S40000x128, .f32⟩
  | .hbm, ⟨68, _⟩ => ⟨S1x64, .f32⟩
  | .hbm, ⟨69, _⟩ => ⟨S40000x64, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S128x128, .f32⟩
  | .local _ .vmem, ⟨14, _⟩ => ⟨S128x128, .f32⟩
  | .local _ .vmem, ⟨15, _⟩ => ⟨S1x128, .f32⟩
  | .local _ .vmem, ⟨16, _⟩ => ⟨S2000x128, .f32⟩
  | .local _ .vmem, ⟨17, _⟩ => ⟨S2000x128, .f32⟩
  | .local _ .vmem, ⟨18, _⟩ => ⟨S2000x128, .f32⟩
  | .local _ .vmem, ⟨19, _⟩ => ⟨S2000x128, .f32⟩
  | .local _ .vmem, ⟨20, _⟩ => ⟨S128x64, .f32⟩
  | .local _ .vmem, ⟨21, _⟩ => ⟨S1x64, .f32⟩
  | .local _ .vmem, ⟨22, _⟩ => ⟨S2000x64, .f32⟩
  | .local _ .vmem, ⟨23, _⟩ => ⟨S2000x64, .f32⟩
  | _, _ => ⟨S40000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_c_4 : Ref sig .tc := ⟨.hbm, 41, rfl⟩
abbrev main_v25 : Ref sig .tc := ⟨.hbm, 42, rfl⟩
abbrev main_v26 : Ref sig .tc := ⟨.hbm, 43, rfl⟩
abbrev main_c_5 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_6 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_7 : Ref sig .tc := ⟨.hbm, 54, rfl⟩
abbrev main_v35 : Ref sig .tc := ⟨.hbm, 55, rfl⟩
abbrev main_cst_8 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_9 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg3_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem3_0 : DmaSem sig := 22
abbrev cc2_sem3_1 : DmaSem sig := 23

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S40000x128 : S_.BroadcastsInDim S40000x128 (![] : Fin 0 → Fin S40000x128.rank)
  bcast_S_S40000 : S_.BroadcastsInDim S40000 (![] : Fin 0 → Fin S40000.rank)
  bcast_S40000_S40000x1_0 : S40000.BroadcastsInDim S40000x1 (![0] : Fin 1 → Fin S40000x1.rank)
  bcast_S40000x1_S40000x128_0_1 : S40000x1.BroadcastsInDim S40000x128 (![0, 1] : Fin 2 → Fin S40000x128.rank)
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  shapeCasts_S64_S1x64 : S64.ShapeCasts S1x64
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S2000x64_S2000x64_0_0 : ∀ a, (![0, 0] : Fin 2 → Nat) a + S2000x64.size a ≤ S2000x64.size a
  h_S2000x64 : 0 < S2000x64.numel
  gather_S40000x128_S640000x1_S640000x128_1_0_n_n_0_1_1128_wf : GatherDims.WF S40000x128 S640000x1 S640000x128 [1] [0] [] [0] [] 1 ![1, 128]
  scatter_S40000x128_S640000x1_S640000x128_1_0_0_1_wf : ScatterDims.WF S40000x128 S640000x1 S640000x128 [1] [0] [0] 1
  scatter_S40000_S640000x1_S640000_n_0_0_1_wf : ScatterDims.WF S40000 S640000x1 S640000 [] [0] [0] 1
  dot_S2000x128_S128x128_S2000x128_1_0_0_1_n_n_wf : DotDims.WF S2000x128 S128x128 S2000x128 [1] [0] [0] [1] [] []
  dot_S2000x128_S128x64_S2000x64_1_0_0_1_n_n_wf : DotDims.WF S2000x128 S128x64 S2000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S40000x128.size a
  hwx0_0 : ∀ i : grid0.Coords, EltTy.bits .f32 = 32 ∨ (Rect.block (s := S40000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S40000x128.size a
  hwx0_1 : ∀ i : grid0.Coords, EltTy.bits .f32 = 32 ∨ (Rect.block (s := S40000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S40000x128.size a
  hwx0_5 : ∀ i : grid0.Coords, EltTy.bits .f32 = 32 ∨ (Rect.block (s := S40000x128) S2000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S40000x128.size a
  hwx1_0 : ∀ i : grid1.Coords, EltTy.bits .f32 = 32 ∨ (Rect.block (s := S40000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S40000x128.size a
  hwx1_1 : ∀ i : grid1.Coords, EltTy.bits .f32 = 32 ∨ (Rect.block (s := S40000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S40000x128.size a
  hwx1_5 : ∀ i : grid1.Coords, EltTy.bits .f32 = 32 ∨ (Rect.block (s := S40000x128) S2000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S40000x128.size a
  hwx2_0 : ∀ i : grid2.Coords, EltTy.bits .f32 = 32 ∨ (Rect.block (s := S40000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x64.size a ≤ S40000x64.size a
  hwx2_3 : ∀ i : grid2.Coords, EltTy.bits .f32 = 32 ∨ (Rect.block (s := S40000x64) S2000x64.size (cc2_transform_3 i) (hinb2_3 i)).WholeWords (EltTy.packing .f32)

variable [Facts₀]

def gather_S40000x128_S640000x1_S640000x128_1_0_n_n_0_1_1128 : GatherDims S40000x128 S640000x1 S640000x128 where
  offsetDims := [1]
  collapsedSliceDims := [0]
  operandBatchingDims := []
  startIndicesBatchingDims := []
  startIndexMap := [0]
  indexVectorDim := 1
  sliceSizes := ![1, 128]
  wf := gather_S40000x128_S640000x1_S640000x128_1_0_n_n_0_1_1128_wf
def scatter_S40000x128_S640000x1_S640000x128_1_0_0_1 : ScatterDims S40000x128 S640000x1 S640000x128 where
  updateWindowDims := [1]
  insertedWindowDims := [0]
  scatterDimsToOperandDims := [0]
  indexVectorDim := 1
  wf := scatter_S40000x128_S640000x1_S640000x128_1_0_0_1_wf
def scatter_S40000_S640000x1_S640000_n_0_0_1 : ScatterDims S40000 S640000x1 S640000 where
  updateWindowDims := []
  insertedWindowDims := [0]
  scatterDimsToOperandDims := [0]
  indexVectorDim := 1
  wf := scatter_S40000_S640000x1_S640000_n_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf

abbrev win0_0 : Pipeline.Window sig grid0 :=
  Pipeline.Window.ofSpec (Memref.whole main_v22) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v23) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S2000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v43) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v44) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v45) S2000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v45) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg8) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v47) S2000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S40000x128 : Shape := ⟨2, ![40000, 128]⟩
abbrev S2x640000 : Shape := ⟨2, ![2, 640000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S40000 : Shape := ⟨1, ![40000]⟩
abbrev S40000x1 : Shape := ⟨2, ![40000, 1]⟩
abbrev S1x128 : Shape := ⟨2, ![1, 128]⟩
abbrev S40000x64 : Shape := ⟨2, ![40000, 64]⟩
abbrev S1x64 : Shape := ⟨2, ![1, 64]⟩

abbrev nBuf : Space → Nat
  | .hbm => 86
  | .vmem => 0
  | .smem => 0
  | _ => 0

abbrev bufTy : (tb : Table) → Fin (tcTables nBuf tb) → BufTy
  | .hbm, ⟨0, _⟩ => ⟨S40000x128, .f32⟩
  | .hbm, ⟨1, _⟩ => ⟨S2x640000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128x64, .f32⟩
  | .hbm, ⟨9, _⟩ => ⟨S64, .f32⟩
  | .hbm, ⟨10, _⟩ => ⟨S1x640000, .i32⟩
  | .hbm, ⟨11, _⟩ => ⟨S640000, .i32⟩
  | .hbm, ⟨12, _⟩ => ⟨S1x640000, .i32⟩
  | .hbm, ⟨13, _⟩ => ⟨S640000, .i32⟩
  | .hbm, ⟨14, _⟩ => ⟨S_, .i32⟩
  | .hbm, ⟨15, _⟩ => ⟨S640000, .i32⟩
  | .hbm, ⟨16, _⟩ => ⟨S640000, .i1⟩
  | .hbm, ⟨17, _⟩ => ⟨S_, .i32⟩
  | .hbm, ⟨18, _⟩ => ⟨S640000, .i32⟩
  | .hbm, ⟨19, _⟩ => ⟨S640000, .i32⟩
  | .hbm, ⟨20, _⟩ => ⟨S640000, .i32⟩
  | .hbm, ⟨21, _⟩ => ⟨S640000x1, .i32⟩
  | .hbm, ⟨22, _⟩ => ⟨S640000x128, .f32⟩
  | .hbm, ⟨23, _⟩ => ⟨S_, .f32⟩
  | .hbm, ⟨24, _⟩ => ⟨S40000x128, .f32⟩
  | .hbm, ⟨25, _⟩ => ⟨S640000x1, .i32⟩
  | .hbm, ⟨26, _⟩ => ⟨S40000x128, .f32⟩
  | .hbm, ⟨27, _⟩ => ⟨S_, .f32⟩
  | .hbm, ⟨28, _⟩ => ⟨S640000, .f32⟩
  | .hbm, ⟨29, _⟩ => ⟨S_, .f32⟩
  | .hbm, ⟨30, _⟩ => ⟨S40000, .f32⟩
  | .hbm, ⟨31, _⟩ => ⟨S640000x1, .i32⟩
  | .hbm, ⟨32, _⟩ => ⟨S40000, .f32⟩
  | .hbm, ⟨33, _⟩ => ⟨S_, .f32⟩
  | .hbm, ⟨34, _⟩ => ⟨S40000, .f32⟩
  | .hbm, ⟨35, _⟩ => ⟨S40000, .f32⟩
  | .hbm, ⟨36, _⟩ => ⟨S40000x1, .f32⟩
  | .hbm, ⟨37, _⟩ => ⟨S40000x128, .f32⟩
  | .hbm, ⟨38, _⟩ => ⟨S40000x128, .f32⟩
  | .hbm, ⟨39, _⟩ => ⟨S40000x128, .f32⟩
  | .hbm, ⟨40, _⟩ => ⟨S40000x128, .f32⟩
  | .hbm, ⟨41, _⟩ => ⟨S40000x128, .f32⟩
  | .hbm, ⟨42, _⟩ => ⟨S1x128, .f32⟩
  | .hbm, ⟨43, _⟩ => ⟨S40000x128, .f32⟩
  | .hbm, ⟨44, _⟩ => ⟨S40000x128, .f32⟩
  | .hbm, ⟨45, _⟩ => ⟨S_, .f32⟩
  | .hbm, ⟨46, _⟩ => ⟨S40000x128, .f32⟩
  | .hbm, ⟨47, _⟩ => ⟨S40000x128, .f32⟩
  | .hbm, ⟨48, _⟩ => ⟨S_, .i32⟩
  | .hbm, ⟨49, _⟩ => ⟨S640000, .i32⟩
  | .hbm, ⟨50, _⟩ => ⟨S640000, .i1⟩
  | .hbm, ⟨51, _⟩ => ⟨S_, .i32⟩
  | .hbm, ⟨52, _⟩ => ⟨S640000, .i32⟩
  | .hbm, ⟨53, _⟩ => ⟨S640000, .i32⟩
  | .hbm, ⟨54, _⟩ => ⟨S640000, .i32⟩
  | .hbm, ⟨55, _⟩ => ⟨S640000x1, .i32⟩
  | .hbm, ⟨56, _⟩ => ⟨S640000x128, .f32⟩
  | .hbm, ⟨57, _⟩ => ⟨S_, .f32⟩
  | .hbm, ⟨58, _⟩ => ⟨S40000x128, .f32⟩
  | .hbm, ⟨59, _⟩ => ⟨S640000x1, .i32⟩
  | .hbm, ⟨60, _⟩ => ⟨S40000x128, .f32⟩
  | .hbm, ⟨61, _⟩ => ⟨S_, .f32⟩
  | .hbm, ⟨62, _⟩ => ⟨S640000, .f32⟩
  | .hbm, ⟨63, _⟩ => ⟨S_, .f32⟩
  | .hbm, ⟨64, _⟩ => ⟨S40000, .f32⟩
  | .hbm, ⟨65, _⟩ => ⟨S640000x1, .i32⟩
  | .hbm, ⟨66, _⟩ => ⟨S40000, .f32⟩
  | .hbm, ⟨67, _⟩ => ⟨S_, .f32⟩
  | .hbm, ⟨68, _⟩ => ⟨S40000, .f32⟩
  | .hbm, ⟨69, _⟩ => ⟨S40000, .f32⟩
  | .hbm, ⟨70, _⟩ => ⟨S40000x1, .f32⟩
  | .hbm, ⟨71, _⟩ => ⟨S40000x128, .f32⟩
  | .hbm, ⟨72, _⟩ => ⟨S40000x128, .f32⟩
  | .hbm, ⟨73, _⟩ => ⟨S40000x128, .f32⟩
  | .hbm, ⟨74, _⟩ => ⟨S40000x128, .f32⟩
  | .hbm, ⟨75, _⟩ => ⟨S40000x128, .f32⟩
  | .hbm, ⟨76, _⟩ => ⟨S1x128, .f32⟩
  | .hbm, ⟨77, _⟩ => ⟨S40000x128, .f32⟩
  | .hbm, ⟨78, _⟩ => ⟨S40000x128, .f32⟩
  | .hbm, ⟨79, _⟩ => ⟨S_, .f32⟩
  | .hbm, ⟨80, _⟩ => ⟨S40000x128, .f32⟩
  | .hbm, ⟨81, _⟩ => ⟨S40000x128, .f32⟩
  | .hbm, ⟨82, _⟩ => ⟨S40000x64, .f32⟩
  | .hbm, ⟨83, _⟩ => ⟨S1x64, .f32⟩
  | .hbm, ⟨84, _⟩ => ⟨S40000x64, .f32⟩
  | .hbm, ⟨85, _⟩ => ⟨S40000x64, .f32⟩
  | _, _ => ⟨S40000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_call0_cst : Ref sig .tc := ⟨.hbm, 45, rfl⟩
abbrev main_call0_v0 : Ref sig .tc := ⟨.hbm, 46, rfl⟩
abbrev main_v29 : Ref sig .tc := ⟨.hbm, 47, rfl⟩
abbrev main_c_4 : Ref sig .tc := ⟨.hbm, 48, rfl⟩
abbrev main_v30 : Ref sig .tc := ⟨.hbm, 49, rfl⟩
abbrev main_v31 : Ref sig .tc := ⟨.hbm, 50, rfl⟩
abbrev main_c_5 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_6 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_7 : Ref sig .tc := ⟨.hbm, 61, rfl⟩
abbrev main_v40 : Ref sig .tc := ⟨.hbm, 62, rfl⟩
abbrev main_cst_8 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_cst_9 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_call1_cst : Ref sig .tc := ⟨.hbm, 79, rfl⟩
abbrev main_call1_v0 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S40000x128 : S_.BroadcastsInDim S40000x128 (![] : Fin 0 → Fin S40000x128.rank)
  bcast_S_S40000 : S_.BroadcastsInDim S40000 (![] : Fin 0 → Fin S40000.rank)
  bcast_S40000_S40000x1_0 : S40000.BroadcastsInDim S40000x1 (![0] : Fin 1 → Fin S40000x1.rank)
  bcast_S40000x1_S40000x128_0_1 : S40000x1.BroadcastsInDim S40000x128 (![0, 1] : Fin 2 → Fin S40000x128.rank)
  bcast_S128_S1x128_1 : S128.BroadcastsInDim S1x128 (![1] : Fin 1 → Fin S1x128.rank)
  bcast_S1x128_S40000x128_0_1 : S1x128.BroadcastsInDim S40000x128 (![0, 1] : Fin 2 → Fin S40000x128.rank)
  bcast_S64_S1x64_1 : S64.BroadcastsInDim S1x64 (![1] : Fin 1 → Fin S1x64.rank)
  bcast_S1x64_S40000x64_0_1 : S1x64.BroadcastsInDim S40000x64 (![0, 1] : Fin 2 → Fin S40000x64.rank)
  gather_S40000x128_S640000x1_S640000x128_1_0_n_n_0_1_1128_wf : GatherDims.WF S40000x128 S640000x1 S640000x128 [1] [0] [] [0] [] 1 ![1, 128]
  scatter_S40000x128_S640000x1_S640000x128_1_0_0_1_wf : ScatterDims.WF S40000x128 S640000x1 S640000x128 [1] [0] [0] 1
  scatter_S40000_S640000x1_S640000_n_0_0_1_wf : ScatterDims.WF S40000 S640000x1 S640000 [] [0] [0] 1
  dot_S40000x128_S128x128_S40000x128_1_0_0_1_n_n_wf : DotDims.WF S40000x128 S128x128 S40000x128 [1] [0] [0] [1] [] []
  dot_S40000x128_S128x64_S40000x64_1_0_0_1_n_n_wf : DotDims.WF S40000x128 S128x64 S40000x64 [1] [0] [0] [1] [] []

variable [Facts₀]

def gather_S40000x128_S640000x1_S640000x128_1_0_n_n_0_1_1128 : GatherDims S40000x128 S640000x1 S640000x128 where
  offsetDims := [1]
  collapsedSliceDims := [0]
  operandBatchingDims := []
  startIndicesBatchingDims := []
  startIndexMap := [0]
  indexVectorDim := 1
  sliceSizes := ![1, 128]
  wf := gather_S40000x128_S640000x1_S640000x128_1_0_n_n_0_1_1128_wf
def scatter_S40000x128_S640000x1_S640000x128_1_0_0_1 : ScatterDims S40000x128 S640000x1 S640000x128 where
  updateWindowDims := [1]
  insertedWindowDims := [0]
  scatterDimsToOperandDims := [0]
  indexVectorDim := 1
  wf := scatter_S40000x128_S640000x1_S640000x128_1_0_0_1_wf
def scatter_S40000_S640000x1_S640000_n_0_0_1 : ScatterDims S40000 S640000x1 S640000 where
  updateWindowDims := []
  insertedWindowDims := [0]
  scatterDimsToOperandDims := [0]
  indexVectorDim := 1
  wf := scatter_S40000_S640000x1_S640000_n_0_0_1_wf
def dot_S40000x128_S128x128_S40000x128_1_0_0_1_n_n : DotDims S40000x128 S128x128 S40000x128 where
  lhsContracting := [1]
  rhsContracting := [0]
  lhsNonContracting := [0]
  rhsNonContracting := [1]
  lhsBatch := []
  rhsBatch := []
  wf := dot_S40000x128_S128x128_S40000x128_1_0_0_1_n_n_wf
def dot_S40000x128_S128x64_S40000x64_1_0_0_1_n_n : DotDims S40000x128 S128x64 S40000x64 where
  lhsContracting := [1]
  rhsContracting := [0]
  lhsNonContracting := [0]
  rhsNonContracting := [1]
  lhsBatch := []
  rhsBatch := []
  wf := dot_S40000x128_S128x64_S40000x64_1_0_0_1_n_n_wf

class Facts : Prop extends Facts₀ where

variable [Facts]
-- ==== Proof.Spec.lean ====
/-
  The mathematics both programs compute, on the extended reals, index by index.

  A GraphSAGE layer takes a node table `h : [40000, 128]`, the table `agg` of the neighbours' means, two
  weight matrices and a bias row, and returns, at node `i` and feature `j`,

      max ( Σ_k agg(i,k) · Wl(k,j)  +  Σ_k h(i,k) · Wr(k,j)  +  b(0,j) ,  0 ).

  The linear head is `Σ_k h(i,k) · W(k,j) + b(0,j)` into 64 features. A bias vector `b : [d]` enters both
  programs as the row `[1, d]` whose entry `(0, j)` is `b(j)` (`row128`, `row64`).

  The two sums of a layer are added first and the bias last, in that order, in the tiled program and in the
  whole-array one alike, so no law of the extended reals beyond reading each operation at an index is
  needed to join them: a tile of 2000 rows computes exactly these sums for its own rows.
-/
import Idealize.ShloMosaic.PureOps.Ideal
import Idealize.ShloMosaic.Lib.ValueIdx

noncomputable section

namespace Cert.Sage

open Idealize.ShloMosaic Idealize.ShloMosaic.ValueIdx

/-- The value every zero literal of the two programs denotes. -/
abbrev zero32 : EReal := Ideal.ofBits .f32 0x00000000#32

/-- A bias vector as the one-row matrix both programs feed to the layer. -/
def row128 (b : FVec Ideal ⟨1, ![128]⟩ .f32) : FVec Ideal ⟨2, ![1, 128]⟩ .f32 :=
  fun i => b (ix1 (n := 128) (i 1))

/-- The head's bias vector as a one-row matrix. -/
def row64 (b : FVec Ideal ⟨1, ![64]⟩ .f32) : FVec Ideal ⟨2, ![1, 64]⟩ .f32 :=
  fun i => b (ix1 (n := 64) (i 1))

/-- One layer with its ReLU: node `i 0`, feature `i 1`. -/
def layer (agg h : FVec Ideal ⟨2, ![40000, 128]⟩ .f32) (Wl Wr : FVec Ideal ⟨2, ![128, 128]⟩ .f32)
    (b : FVec Ideal ⟨2, ![1, 128]⟩ .f32) : FVec Ideal ⟨2, ![40000, 128]⟩ .f32 :=
  fun i => max
    ((∑ k : Fin 128, agg (ix2 (n0 := 40000) (n1 := 128) (i 0) k) * Wl (ix2 (n0 := 128) (n1 := 128) k (i 1)))
      + (∑ k : Fin 128, h (ix2 (n0 := 40000) (n1 := 128) (i 0) k) * Wr (ix2 (n0 := 128) (n1 := 128) k (i 1)))
      + b (ix2 (n0 := 1) (n1 := 128) 0 (i 1)))
    zero32

/-- The linear head: node `i 0`, output feature `i 1`. -/
def head (h : FVec Ideal ⟨2, ![40000, 128]⟩ .f32) (W : FVec Ideal ⟨2, ![128, 64]⟩ .f32)
    (b : FVec Ideal ⟨2, ![1, 64]⟩ .f32) : FVec Ideal ⟨2, ![40000, 64]⟩ .f32 :=
  fun i => (∑ k : Fin 128, h (ix2 (n0 := 40000) (n1 := 128) (i 0) k) * W (ix2 (n0 := 128) (n1 := 64) k (i 1)))
      + b (ix2 (n0 := 1) (n1 := 64) 0 (i 1))

end Cert.Sage

end
-- ==== Proof.Aggregate.lean ====
/-
  The mean over incoming edges, as ONE function of a node table and the two index rows of the edge list.

  Both programs compute it with the same host operations, in the same order and with the same literals:
  an edge's source index `s` is first normalised (`s + 40000` where `s < 0`), the source rows are gathered
  (one row of 128 features per edge), scatter-added into a zero table at the edges' destination rows, and
  each row is divided by `max(degree, 1)`, the degree being the scatter-add of ones at the same destinations.
  The tiled program runs it before each of its two layer kernels, the whole-array program before each of its
  two layers; the second time on the first layer's output. Nothing below depends on what a gather or a
  scatter-add does at an index: the two sides are joined by applying this one function to equal tables.
-/
import proofs.«163185_j34600256537253_1_alg».proof.Proof.Gen.KernelIdeal
import Idealize.ShloMosaic.PureOps.Ideal

noncomputable section

namespace Cert.Sage

open Idealize.ShloMosaic Cert.KernelIdeal Cert.KernelIdeal.Gen

/-- Row 0 of the edge list: each edge's source node. -/
def srcOf (ei : (⟨S2x640000, .i32⟩ : BufTy).Contents (Elt Ideal)) : (⟨S640000, .i32⟩ : BufTy).Contents (Elt Ideal) :=
  shapeCast _ (extractStridedSlice S1x640000 ![0, 0] ei slices_S2x640000_S1x640000_0_0) shapeCasts_S1x640000_S640000

/-- Row 1 of the edge list: each edge's destination node. -/
def dstOf (ei : (⟨S2x640000, .i32⟩ : BufTy).Contents (Elt Ideal)) : (⟨S640000, .i32⟩ : BufTy).Contents (Elt Ideal) :=
  shapeCast _ (extractStridedSlice S1x640000 ![1, 0] ei slices_S2x640000_S1x640000_1_0) shapeCasts_S1x640000_S640000

/-- The mean of the source rows over each destination's incoming edges (a destination with no edge divides by 1). -/
def aggr (feat : (⟨S40000x128, .f32⟩ : BufTy).Contents (Elt Ideal)) (src dst : (⟨S640000, .i32⟩ : BufTy).Contents (Elt Ideal)) :
    (⟨S40000x128, .f32⟩ : BufTy).Contents (Elt Ideal) :=
  Host.divf (F := Ideal)
    (Host.scatterAdd (F := Ideal) scatter_S40000x128_S640000x1_S640000x128_1_0_0_1
      (broadcastInDim S40000x128 ![] bcast_S_S40000x128 (constant (F := Ideal) S_ .f32 0x00000000#32))
      (broadcastInDim S640000x1 ![0] bcast_S640000_S640000x1_0 dst)
      (Host.gather gather_S40000x128_S640000x1_S640000x128_1_0_n_n_0_1_1128 feat
        (broadcastInDim S640000x1 ![0] bcast_S640000_S640000x1_0
          (select (cmpi .slt src (broadcastInDim S640000 ![] bcast_S_S640000 (constantI S_ 32 0#32)))
            (addi src (broadcastInDim S640000 ![] bcast_S_S640000 (constantI S_ 32 40000#32)))
            src))))
    (broadcastInDim S40000x128 ![0, 1] bcast_S40000x1_S40000x128_0_1
      (broadcastInDim S40000x1 ![0] bcast_S40000_S40000x1_0
        (maximumf (F := Ideal)
          (Host.scatterAdd (F := Ideal) scatter_S40000_S640000x1_S640000_n_0_0_1
            (broadcastInDim S40000 ![] bcast_S_S40000 (constant (F := Ideal) S_ .f32 0x00000000#32))
            (broadcastInDim S640000x1 ![0] bcast_S640000_S640000x1_0 dst)
            (broadcastInDim S640000 ![] bcast_S_S640000 (constant (F := Ideal) S_ .f32 0x3F800000#32)))
          (broadcastInDim S40000 ![] bcast_S_S40000 (constant (F := Ideal) S_ .f32 0x3F800000#32)))))

end Cert.Sage

end
-- ==== Proof.Net.lean ====
/-
  The whole network as one function of the ten inputs: the neighbour mean of the node features, the first
  layer on it; the neighbour mean of the first layer's output, the second layer on that; the linear head.
  The edge list's two rows are read once and serve both aggregations.
-/
import proofs.«163185_j34600256537253_1_alg».proof.Proof.Spec
import proofs.«163185_j34600256537253_1_alg».proof.Proof.Aggregate

noncomputable section

namespace Cert.Sage

open Idealize.ShloMosaic Cert.KernelIdeal

/-- The first layer's output table. -/
def hidden1 (x : (⟨S40000x128, .f32⟩ : BufTy).Contents (Elt Ideal)) (ei : (⟨S2x640000, .i32⟩ : BufTy).Contents (Elt Ideal))
    (W1l W1r : (⟨S128x128, .f32⟩ : BufTy).Contents (Elt Ideal)) (b1 : (⟨S128, .f32⟩ : BufTy).Contents (Elt Ideal)) :
    (⟨S40000x128, .f32⟩ : BufTy).Contents (Elt Ideal) :=
  layer (aggr x (srcOf ei) (dstOf ei)) x W1l W1r (row128 b1)

/-- The second layer's output table, from the first's. -/
def hidden2 (h1 : (⟨S40000x128, .f32⟩ : BufTy).Contents (Elt Ideal)) (ei : (⟨S2x640000, .i32⟩ : BufTy).Contents (Elt Ideal))
    (W2l W2r : (⟨S128x128, .f32⟩ : BufTy).Contents (Elt Ideal)) (b2 : (⟨S128, .f32⟩ : BufTy).Contents (Elt Ideal)) :
    (⟨S40000x128, .f32⟩ : BufTy).Contents (Elt Ideal) :=
  layer (aggr h1 (srcOf ei) (dstOf ei)) h1 W2l W2r (row128 b2)

/-- The network's output: `[40000, 64]`. -/
def net (x : (⟨S40000x128, .f32⟩ : BufTy).Contents (Elt Ideal)) (ei : (⟨S2x640000, .i32⟩ : BufTy).Contents (Elt Ideal))
    (W1l W1r : (⟨S128x128, .f32⟩ : BufTy).Contents (Elt Ideal)) (b1 : (⟨S128, .f32⟩ : BufTy).Contents (Elt Ideal))
    (W2l W2r : (⟨S128x128, .f32⟩ : BufTy).Contents (Elt Ideal)) (b2 : (⟨S128, .f32⟩ : BufTy).Contents (Elt Ideal))
    (Wout : (⟨S128x64, .f32⟩ : BufTy).Contents (Elt Ideal)) (bout : (⟨S64, .f32⟩ : BufTy).Contents (Elt Ideal)) :
    (⟨S40000x64, .f32⟩ : BufTy).Contents (Elt Ideal) :=
  head (hidden2 (hidden1 x ei W1l W1r b1) ei W2l W2r b2) Wout (row64 bout)

end Cert.Sage

end
-- ==== Proof.BoundaryReads.lean ====
/-
  What the buffers of the tiled program's @main hold at its boundaries, case by case: a buffer a host stretch
  writes holds the composition of the stretch's operations applied to what the stretch found; a buffer a stretch or
  a region does not write holds what it held before. The first stretch reads the edge list's two rows out once
  (`srcOf`, `dstOf`) and computes the neighbour mean of the input features (`aggr`); the second computes the
  neighbour mean of the first region's table from the same two rows; each stretch reshapes its layer's bias vector
  to one row; weights and biases ride through to the region that stages them.
-/
import proofs.«163185_j34600256537253_1_alg».proof.Proof.Gen.KernelIdeal.Frame
import proofs.«163185_j34600256537253_1_alg».proof.Proof.Net
import Idealize.ShloMosaic.Lib.StableHlo.Run

set_option maxRecDepth 16384

noncomputable section

namespace Cert.KernelIdeal.NetValue

open Cert.KernelIdeal Cert.KernelIdeal.Gen Cert.Sage
open Idealize.ShloMosaic Idealize.ShloMosaic.TcCoe Idealize.SL.Sem Idealize.ShloMosaic.StableHlo

variable (m : (ℓ : Loc nD τ sig) → Buf (Elt Ideal) ℓ) (ρ : Dev nD → PrngReg)

/-! ## The first stretch: from the launch memory to the first region's entry -/

theorem s0_agg (c : Dev nD) : W1 m ρ c (Proc.devRef .tc main_v22) = aggr (m ((c : Thread nD τ).loc main_arg0)) (srcOf (m ((c : Thread nD τ).loc main_arg1))) (dstOf (m ((c : Thread nD τ).loc main_arg1))) := by
  show StableHlo.after hostOps0 (W0 m ρ c) (Proc.devRef .tc main_v22) = _
  after_results_simp <;> rfl

theorem s0_src (c : Dev nD) : W1 m ρ c (Proc.devRef .tc main_v1) = srcOf (m ((c : Thread nD τ).loc main_arg1)) := by
  show StableHlo.after hostOps0 (W0 m ρ c) (Proc.devRef .tc main_v1) = _
  after_results_simp <;> rfl

theorem s0_dst (c : Dev nD) : W1 m ρ c (Proc.devRef .tc main_v3) = dstOf (m ((c : Thread nD τ).loc main_arg1)) := by
  show StableHlo.after hostOps0 (W0 m ρ c) (Proc.devRef .tc main_v3) = _
  after_results_simp <;> rfl

theorem s0_bias (c : Dev nD) : W1 m ρ c (Proc.devRef .tc main_v23) = shapeCast S1x128 (m ((c : Thread nD τ).loc main_arg4)) shapeCasts_S128_S1x128 := by
  show StableHlo.after hostOps0 (W0 m ρ c) (Proc.devRef .tc main_v23) = _
  after_results_simp <;> rfl

theorem s0_arg0 (c : Dev nD) : W1 m ρ c (Proc.devRef .tc main_arg0) = (m ((c : Thread nD τ).loc main_arg0)) := by
  show StableHlo.after hostOps0 (W0 m ρ c) (Proc.devRef .tc main_arg0) = _
  after_results_simp <;> rfl

theorem s0_arg2 (c : Dev nD) : W1 m ρ c (Proc.devRef .tc main_arg2) = (m ((c : Thread nD τ).loc main_arg2)) := by
  show StableHlo.after hostOps0 (W0 m ρ c) (Proc.devRef .tc main_arg2) = _
  after_results_simp <;> rfl

theorem s0_arg3 (c : Dev nD) : W1 m ρ c (Proc.devRef .tc main_arg3) = (m ((c : Thread nD τ).loc main_arg3)) := by
  show StableHlo.after hostOps0 (W0 m ρ c) (Proc.devRef .tc main_arg3) = _
  after_results_simp <;> rfl

theorem s0_arg5 (c : Dev nD) : W1 m ρ c (Proc.devRef .tc main_arg5) = (m ((c : Thread nD τ).loc main_arg5)) := by
  show StableHlo.after hostOps0 (W0 m ρ c) (Proc.devRef .tc main_arg5) = _
  after_results_simp <;> rfl

theorem s0_arg6 (c : Dev nD) : W1 m ρ c (Proc.devRef .tc main_arg6) = (m ((c : Thread nD τ).loc main_arg6)) := by
  show StableHlo.after hostOps0 (W0 m ρ c) (Proc.devRef .tc main_arg6) = _
  after_results_simp <;> rfl

theorem s0_arg7 (c : Dev nD) : W1 m ρ c (Proc.devRef .tc main_arg7) = (m ((c : Thread nD τ).loc main_arg7)) := by
  show StableHlo.after hostOps0 (W0 m ρ c) (Proc.devRef .tc main_arg7) = _
  after_results_simp <;> rfl

theorem s0_arg8 (c : Dev nD) : W1 m ρ c (Proc.devRef .tc main_arg8) = (m ((c : Thread nD τ).loc main_arg8)) := by
  show StableHlo.after hostOps0 (W0 m ρ c) (Proc.devRef .tc main_arg8) = _
  after_results_simp <;> rfl

theorem s0_arg9 (c : Dev nD) : W1 m ρ c (Proc.devRef .tc main_arg9) = (m ((c : Thread nD τ).loc main_arg9)) := by
  show StableHlo.after hostOps0 (W0 m ρ c) (Proc.devRef .tc main_arg9) = _
  after_results_simp <;> rfl

/-! ## Across the first region: what it does not write -/

theorem r0_src (c : Dev nD) : W2 m ρ c (Proc.devRef .tc main_v1) = srcOf (m ((c : Thread nD τ).loc main_arg1)) :=
  (W2_of_ne m ρ c main_v1 (by decide)).trans (s0_src m ρ c)

theorem r0_dst (c : Dev nD) : W2 m ρ c (Proc.devRef .tc main_v3) = dstOf (m ((c : Thread nD τ).loc main_arg1)) :=
  (W2_of_ne m ρ c main_v3 (by decide)).trans (s0_dst m ρ c)

theorem r0_arg5 (c : Dev nD) : W2 m ρ c (Proc.devRef .tc main_arg5) = (m ((c : Thread nD τ).loc main_arg5)) :=
  (W2_of_ne m ρ c main_arg5 (by decide)).trans (s0_arg5 m ρ c)

theorem r0_arg6 (c : Dev nD) : W2 m ρ c (Proc.devRef .tc main_arg6) = (m ((c : Thread nD τ).loc main_arg6)) :=
  (W2_of_ne m ρ c main_arg6 (by decide)).trans (s0_arg6 m ρ c)

theorem r0_arg7 (c : Dev nD) : W2 m ρ c (Proc.devRef .tc main_arg7) = (m ((c : Thread nD τ).loc main_arg7)) :=
  (W2_of_ne m ρ c main_arg7 (by decide)).trans (s0_arg7 m ρ c)

theorem r0_arg8 (c : Dev nD) : W2 m ρ c (Proc.devRef .tc main_arg8) = (m ((c : Thread nD τ).loc main_arg8)) :=
  (W2_of_ne m ρ c main_arg8 (by decide)).trans (s0_arg8 m ρ c)

theorem r0_arg9 (c : Dev nD) : W2 m ρ c (Proc.devRef .tc main_arg9) = (m ((c : Thread nD τ).loc main_arg9)) :=
  (W2_of_ne m ρ c main_arg9 (by decide)).trans (s0_arg9 m ρ c)

/-! ## The second stretch: from the first region's exit to the second region's entry -/

theorem s1_agg (c : Dev nD) : W3 m ρ c (Proc.devRef .tc main_v43) = aggr (W2 m ρ c (Proc.devRef .tc main_v24)) (W2 m ρ c (Proc.devRef .tc main_v1)) (W2 m ρ c (Proc.devRef .tc main_v3)) := by
  show StableHlo.after hostOps1 (W2 m ρ c) (Proc.devRef .tc main_v43) = _
  after_results_simp <;> rfl

theorem s1_bias (c : Dev nD) : W3 m ρ c (Proc.devRef .tc main_v44) = shapeCast S1x128 (W2 m ρ c (Proc.devRef .tc main_arg7)) shapeCasts_S128_S1x128 := by
  show StableHlo.after hostOps1 (W2 m ρ c) (Proc.devRef .tc main_v44) = _
  after_results_simp <;> rfl

theorem s1_hidden (c : Dev nD) : W3 m ρ c (Proc.devRef .tc main_v24) = W2 m ρ c (Proc.devRef .tc main_v24) := by
  show StableHlo.after hostOps1 (W2 m ρ c) (Proc.devRef .tc main_v24) = _
  after_results_simp <;> rfl

theorem s1_arg5 (c : Dev nD) : W3 m ρ c (Proc.devRef .tc main_arg5) = W2 m ρ c (Proc.devRef .tc main_arg5) := by
  show StableHlo.after hostOps1 (W2 m ρ c) (Proc.devRef .tc main_arg5) = _
  after_results_simp <;> rfl

theorem s1_arg6 (c : Dev nD) : W3 m ρ c (Proc.devRef .tc main_arg6) = W2 m ρ c (Proc.devRef .tc main_arg6) := by
  show StableHlo.after hostOps1 (W2 m ρ c) (Proc.devRef .tc main_arg6) = _
  after_results_simp <;> rfl

theorem s1_arg8 (c : Dev nD) : W3 m ρ c (Proc.devRef .tc main_arg8) = W2 m ρ c (Proc.devRef .tc main_arg8) := by
  show StableHlo.after hostOps1 (W2 m ρ c) (Proc.devRef .tc main_arg8) = _
  after_results_simp <;> rfl

theorem s1_arg9 (c : Dev nD) : W3 m ρ c (Proc.devRef .tc main_arg9) = W2 m ρ c (Proc.devRef .tc main_arg9) := by
  show StableHlo.after hostOps1 (W2 m ρ c) (Proc.devRef .tc main_arg9) = _
  after_results_simp <;> rfl

/-! ## Across the second region, and the third stretch -/

theorem r1_arg8 (c : Dev nD) : W4 m ρ c (Proc.devRef .tc main_arg8) = (m ((c : Thread nD τ).loc main_arg8)) :=
  (W4_of_ne m ρ c main_arg8 (by decide)).trans ((s1_arg8 m ρ c).trans (r0_arg8 m ρ c))

theorem r1_arg9 (c : Dev nD) : W4 m ρ c (Proc.devRef .tc main_arg9) = (m ((c : Thread nD τ).loc main_arg9)) :=
  (W4_of_ne m ρ c main_arg9 (by decide)).trans ((s1_arg9 m ρ c).trans (r0_arg9 m ρ c))

theorem s2_bias (c : Dev nD) : W5 m ρ c (Proc.devRef .tc main_v46) = shapeCast S1x64 (W4 m ρ c (Proc.devRef .tc main_arg9)) shapeCasts_S64_S1x64 := by
  show StableHlo.after hostOps2 (W4 m ρ c) (Proc.devRef .tc main_v46) = _
  after_results_simp <;> rfl

theorem s2_hidden (c : Dev nD) : W5 m ρ c (Proc.devRef .tc main_v45) = W4 m ρ c (Proc.devRef .tc main_v45) := by
  show StableHlo.after hostOps2 (W4 m ρ c) (Proc.devRef .tc main_v45) = _
  after_results_simp <;> rfl

theorem s2_arg8 (c : Dev nD) : W5 m ρ c (Proc.devRef .tc main_arg8) = W4 m ρ c (Proc.devRef .tc main_arg8) := by
  show StableHlo.after hostOps2 (W4 m ρ c) (Proc.devRef .tc main_arg8) = _
  after_results_simp <;> rfl

end Cert.KernelIdeal.NetValue

end
-- ==== Proof.Layer0.lean ====
/-
  What the first layer's tiled kernel leaves in its result table.

  The grid has 20 points; point `t` stages rows `2000·t … 2000·t + 1999` of the neighbour-mean table and of the
  node table, the two whole weight matrices and the bias row, and writes back the same rows of the result.
  Its body computes, for row `p` of the tile and feature `q`,

      max ( Σ_k agg(p,k)·Wl(k,q) + Σ_k h(p,k)·Wr(k,q) + b(0,q) , 0 ),

  the two products by the matrix unit into a zero accumulator (at the extended reals: the plain sums over the
  128 shared features; the change of format of the operands is the identity). A tile's row `p` is row
  `2000·t + p` of the tables, so what point `t` writes back is block `t` of ONE function of the whole tables,
  `Cert.Sage.layer`; the 20 blocks cover all 40000 rows, so the result table ends holding that function.
-/
import proofs.«163185_j34600256537253_1_alg».proof.Proof.Gen.KernelIdeal.Frame
import proofs.«163185_j34600256537253_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Layer0

open Cert.KernelIdeal Cert.KernelIdeal.Gen Cert.Sage
open Idealize.ShloMosaic Idealize.ShloMosaic.TcCoe Idealize.ShloMosaic.ValueIdx Idealize.SL.Sem
open Idealize.ShloMosaic.Pipeline (Dat Cfg Window)

/-! ## A tile's matrix product at an index -/

theorem lhs_axis0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem lhs_axis1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
theorem rhs_axis0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
theorem rhs_axis1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- Row `p`, column `q` of a tile's product into the zero accumulator: the sum over the 128 shared features. -/
theorem tile_product {φ₁ φ₂ : FTy} (l : FVec Ideal S2000x128 φ₁) (r : FVec Ideal S128x128 φ₂) (p : Fin 2000) (q : Fin 128) :
    matmul dot_S2000x128_S128x128_S2000x128_1_0_0_1_n_n none l r (constant (F := Ideal) S2000x128 .f32 0x00000000#32) (ix2 p q)
      = ∑ k : Fin 128, l (ix2 p k) * r (ix2 k q) := by
  simp only [matmul]
  rw [Ideal.matmul_constant_zero_apply, ← Equiv.sum_comp (ValueIdx.contrEquiv1 dot_S2000x128_S128x128_S2000x128_1_0_0_1_n_n 128 rfl rfl).symm]
  refine Finset.sum_congr rfl fun k _ => ?_
  have hk := ValueIdx.contrEquiv1_symm_val dot_S2000x128_S128x128_S2000x128_1_0_0_1_n_n 128 rfl rfl k
  have el : dot_S2000x128_S128x128_S2000x128_1_0_0_1_n_n.lhsIdx (ix2 p q) ((ValueIdx.contrEquiv1 dot_S2000x128_S128x128_S2000x128_1_0_0_1_n_n 128 rfl rfl).symm k) = ix2 p k := funext fun a => Fin.ext (by
    match a with
    | ⟨0, _⟩ => exact lhs_axis0 _ _
    | ⟨1, _⟩ => exact (lhs_axis1 _ _).trans hk)
  have er : dot_S2000x128_S128x128_S2000x128_1_0_0_1_n_n.rhsIdx (ix2 p q) ((ValueIdx.contrEquiv1 dot_S2000x128_S128x128_S2000x128_1_0_0_1_n_n 128 rfl rfl).symm k) = ix2 k q := funext fun a => Fin.ext (by
    match a with
    | ⟨0, _⟩ => exact (rhs_axis0 _ _).trans hk
    | ⟨1, _⟩ => exact rhs_axis1 _ _)
  rw [el, er]

/-! ## The body's value at an index -/

/-- The stored tile at row `p`, feature `q`, from the five loaded blocks. -/
theorem payload_apply (x0 x1 : Vec Ideal S2000x128 .f32) (x2 x3 : Vec Ideal S128x128 .f32) (x4 : Vec Ideal S1x128 .f32)
    (p : Fin 2000) (q : Fin 128) :
    k0_pay1 (F := Ideal) x0 x1 x2 x3 x4 (ix2 p q)
      = max ((∑ k : Fin 128, x0 (ix2 p k) * x2 (ix2 k q)) + (∑ k : Fin 128, x1 (ix2 p k) * x3 (ix2 k q))
          + x4 (ix2 (0 : Fin 1) q)) zero32 := by
  unfold k0_pay1
  simp only [maximumf_apply, addf_apply, tile_product, broadcast_apply, shapeCast_self, truncf_apply]
  rw [broadcastTo_1b_ab_apply (a := 2000) (b := 128) x4 broadcasts_S1x128_S2000x128 p q]
  rfl

/-! ## The grid's schedule -/

theorem hz : (![0, 0] : Fin 2 → Nat) = fun _ => 0 := funext fun a => by fin_cases a <;> rfl

/-- The printed index maps, decided over the 20 points: the two row-tiled inputs and the output sit at block
    row `t`; the weights and the bias row are always block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

theorem point_lt (t : Fin cfg0.N) : t.val < 20 := lt_of_lt_of_eq t.isLt N_0

/-- Row `p` of point `t`'s tile is row `2000·t + p` of the tables. -/
def tileRow (t : Fin cfg0.N) (p : Fin 2000) : Fin 40000 :=
  ⟨t.val * 2000 + p.val, by have := point_lt t; have := p.isLt; omega⟩

section

variable (V : (c : Dev nD) → (b : Ref sig .tc) → Buf (Elt Ideal) ((c : Thread nD τ).loc b))

/-! ## The five staged blocks, read where the tile's row and column say -/

abbrev blkAgg (c : Dev nD) (t : Fin cfg0.N) : Vec Ideal S2000x128 .f32 := iblk0 V c 0 t
abbrev blkH (c : Dev nD) (t : Fin cfg0.N) : Vec Ideal S2000x128 .f32 := iblk0 V c 1 t
abbrev blkWl (c : Dev nD) (t : Fin cfg0.N) : Vec Ideal S128x128 .f32 := iblk0 V c 2 t
abbrev blkWr (c : Dev nD) (t : Fin cfg0.N) : Vec Ideal S128x128 .f32 := iblk0 V c 3 t
abbrev blkB (c : Dev nD) (t : Fin cfg0.N) : Vec Ideal S1x128 .f32 := iblk0 V c 4 t

theorem readAgg (c : Dev nD) (t : Fin cfg0.N) (p : Fin 2000) (k : Fin 128) :
    blkAgg V c t (ix2 p k) = V c main_v22 (ix2 (tileRow t p) k) := by
  obtain ⟨e0, e1, -⟩ := idx_facts t
  show V c main_v22 (((cfg0.win 0).blk t).view.emb (ix2 p k)) = _
  refine congrArg (V c main_v22) (funext fun a => Fin.ext ?_)
  match a with
  | ⟨0, _⟩ => show win0_0.index t (0 : Fin 2) * 2000 + 1 * p.val = t.val * 2000 + p.val; omega
  | ⟨1, _⟩ => show win0_0.index t (1 : Fin 2) * 128 + 1 * k.val = k.val; omega

theorem readH (c : Dev nD) (t : Fin cfg0.N) (p : Fin 2000) (k : Fin 128) :
    blkH V c t (ix2 p k) = V c main_arg0 (ix2 (tileRow t p) k) := by
  obtain ⟨-, -, e0, e1, -⟩ := idx_facts t
  show V c main_arg0 (((cfg0.win 1).blk t).view.emb (ix2 p k)) = _
  refine congrArg (V c main_arg0) (funext fun a => Fin.ext ?_)
  match a with
  | ⟨0, _⟩ => show win0_1.index t (0 : Fin 2) * 2000 + 1 * p.val = t.val * 2000 + p.val; omega
  | ⟨1, _⟩ => show win0_1.index t (1 : Fin 2) * 128 + 1 * k.val = k.val; omega

theorem readWl (c : Dev nD) (t : Fin cfg0.N) (k q : Fin 128) :
    blkWl V c t (ix2 k q) = V c main_arg2 (ix2 k q) := by
  obtain ⟨-, -, -, -, e0, e1, -⟩ := idx_facts t
  show V c main_arg2 (((cfg0.win 2).blk t).view.emb (ix2 k q)) = _
  refine congrArg (V c main_arg2) (funext fun a => Fin.ext ?_)
  match a with
  | ⟨0, _⟩ => show win0_2.index t (0 : Fin 2) * 128 + 1 * k.val = k.val; omega
  | ⟨1, _⟩ => show win0_2.index t (1 : Fin 2) * 128 + 1 * q.val = q.val; omega

theorem readWr (c : Dev nD) (t : Fin cfg0.N) (k q : Fin 128) :
    blkWr V c t (ix2 k q) = V c main_arg3 (ix2 k q) := by
  obtain ⟨-, -, -, -, -, -, e0, e1, -⟩ := idx_facts t
  show V c main_arg3 (((cfg0.win 3).blk t).view.emb (ix2 k q)) = _
  refine congrArg (V c main_arg3) (funext fun a => Fin.ext ?_)
  match a with
  | ⟨0, _⟩ => show win0_3.index t (0 : Fin 2) * 128 + 1 * k.val = k.val; omega
  | ⟨1, _⟩ => show win0_3.index t (1 : Fin 2) * 128 + 1 * q.val = q.val; omega

theorem readB (c : Dev nD) (t : Fin cfg0.N) (q : Fin 128) :
    blkB V c t (ix2 (0 : Fin 1) q) = V c main_v23 (ix2 (0 : Fin 1) q) := by
  obtain ⟨-, -, -, -, -, -, -, -, e0, e1, -⟩ := idx_facts t
  show V c main_v23 (((cfg0.win 4).blk t).view.emb (ix2 (0 : Fin 1) q)) = _
  refine congrArg (V c main_v23) (funext fun a => Fin.ext ?_)
  match a with
  | ⟨0, _⟩ => show win0_4.index t (0 : Fin 2) * 1 + 1 * 0 = 0; omega
  | ⟨1, _⟩ => show win0_4.index t (1 : Fin 2) * 128 + 1 * q.val = q.val; omega

/-- The tile's entry `(p, q)` lands at row `2000·t + p`, column `q` of the result table. -/
theorem emb_out (t : Fin cfg0.N) (p : Fin 2000) (q : Fin 128) :
    ((cfg0.win 5).blk t).view.emb (ix2 p q) = ix2 (tileRow t p) q := by
  obtain ⟨-, -, -, -, -, -, -, -, -, -, e0, e1⟩ := idx_facts t
  refine funext fun a => Fin.ext ?_
  match a with
  | ⟨0, _⟩ => show win0_5.index t (0 : Fin 2) * 2000 + 1 * p.val = t.val * 2000 + p.val; omega
  | ⟨1, _⟩ => show win0_5.index t (1 : Fin 2) * 128 + 1 * q.val = q.val; omega

/-! ## What a point writes back, the cover, the table -/

/-- WHAT POINT `t` WRITES BACK is block `t` of the layer function of the tables as the region finds them. -/
theorem flushed (c : Dev nD) (t : Fin cfg0.N) :
    (dat0 V c).flushed 5 t = ((cfg0.win 5).blk t).view.read (Elt Ideal)
      (layer (V c main_v22) (V c main_arg0) (V c main_arg2) (V c main_arg3) (V c main_v23)) := by
  show (cfg0.win 5).cut (grid0.coords t) ((dat0 V c).after 5 t) = _
  rw [after0_5]
  unfold out0_5
  rw [View.canon_unit_zero hz]
  simp only [View.ld_unit_zero (S := S2000x128) hz, View.ld_unit_zero (S := S128x128) hz, View.ld_unit_zero (S := S1x128) hz]
  funext j
  obtain ⟨p, q, rfl⟩ : ∃ (p : Fin 2000) (q : Fin 128), j = ix2 p q := ⟨j 0, j 1, eq_ix2 j⟩
  refine (payload_apply (blkAgg V c t) (blkH V c t) (blkWl V c t) (blkWr V c t) (blkB V c t) p q).trans ?_
  show _ = layer (V c main_v22) (V c main_arg0) (V c main_arg2) (V c main_arg3) (V c main_v23) (((cfg0.win 5).blk t).view.emb (ix2 p q))
  rw [emb_out t p q]
  exact congrArg₂ max
    (congrArg₂ (· + ·)
      (congrArg₂ (· + ·)
        (Finset.sum_congr rfl fun k _ => congrArg₂ (· * ·) (readAgg V c t p k) (readWl V c t k q))
        (Finset.sum_congr rfl fun k _ => congrArg₂ (· * ·) (readH V c t p k) (readWr V c t k q)))
      (readB V c t q))
    rfl

/-- An index of the table is in point `t`'s block iff each coordinate is in the block's range on its axis. -/
theorem mem_blk (t : Fin cfg0.N) (i : S40000x128.Idx) :
    i ∈ ((cfg0.win 5).blk t).view.set ↔ ∀ a : Fin 2, win0_5.index t a * S2000x128.size a ≤ (i a).val ∧ (i a).val < win0_5.index t a * S2000x128.size a + S2000x128.size a := by
  show i ∈ ((View.whole main_v24).slice (win0_5.rect t)).set ↔ _
  rw [View.set_slice_whole, Rect.mem_set_unit]
  exact Iff.rfl

/-- Row `r` of the table is in the block of point `r / 2000`: the 20 blocks cover the table. -/
theorem cover (i : S40000x128.Idx) : ∃ t : Fin cfg0.N, (cfg0.win 5).flush t = true ∧ i ∈ ((cfg0.win 5).blk t).view.set := by
  have hi0 : (i 0).val < 40000 := (i 0).isLt
  have hi1 : (i 1).val < 128 := (i 1).isLt
  have hN : (i 0).val / 2000 < cfg0.N := lt_of_lt_of_eq (by omega : (i 0).val / 2000 < 20) N_0.symm
  obtain ⟨-, -, -, -, -, -, -, -, -, -, e0, e1⟩ := idx_facts ⟨(i 0).val / 2000, hN⟩
  refine ⟨⟨(i 0).val / 2000, hN⟩, flush0_5 _, ?_⟩
  rw [mem_blk]
  intro a
  match a with
  | ⟨0, _⟩ =>
    show win0_5.index ⟨(i 0).val / 2000, hN⟩ (0 : Fin 2) * 2000 ≤ (i 0).val ∧ (i 0).val < win0_5.index ⟨(i 0).val / 2000, hN⟩ (0 : Fin 2) * 2000 + 2000
    rw [e0]; show (i 0).val / 2000 * 2000 ≤ (i 0).val ∧ (i 0).val < (i 0).val / 2000 * 2000 + 2000; omega
  | ⟨1, _⟩ =>
    show win0_5.index ⟨(i 0).val / 2000, hN⟩ (1 : Fin 2) * 128 ≤ (i 1).val ∧ (i 1).val < win0_5.index ⟨(i 0).val / 2000, hN⟩ (1 : Fin 2) * 128 + 128
    rw [e1]; omega

/-- THE TABLE after the region: the layer function of the tables the region was entered with. -/
theorem final (c : Dev nD) :
    (dat0 V c).arrAt 5 cfg0.N = layer (V c main_v22) (V c main_arg0) (V c main_arg2) (V c main_arg3) (V c main_v23) :=
  (dat0 V c).arrAt_eq_of_cover 5 _ (fun t _ => flushed V c t) cover

end

end Cert.KernelIdeal.Layer0

end
-- ==== Proof.Layer1.lean ====
/-
  What the second layer's tiled kernel leaves in its result table.

  The grid has 20 points; point `t` stages rows `2000·t … 2000·t + 1999` of the neighbour-mean table and of the
  node table, the two whole weight matrices and the bias row, and writes back the same rows of the result.
  Its body computes, for row `p` of the tile and feature `q`,

      max ( Σ_k agg(p,k)·Wl(k,q) + Σ_k h(p,k)·Wr(k,q) + b(0,q) , 0 ),

  the two products by the matrix unit into a zero accumulator (at the extended reals: the plain sums over the
  128 shared features; the change of format of the operands is the identity). A tile's row `p` is row
  `2000·t + p` of the tables, so what point `t` writes back is block `t` of ONE function of the whole tables,
  `Cert.Sage.layer`; the 20 blocks cover all 40000 rows, so the result table ends holding that function.
-/
import proofs.«163185_j34600256537253_1_alg».proof.Proof.Gen.KernelIdeal.Frame
import proofs.«163185_j34600256537253_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Layer1

open Cert.KernelIdeal Cert.KernelIdeal.Gen Cert.Sage
open Idealize.ShloMosaic Idealize.ShloMosaic.TcCoe Idealize.ShloMosaic.ValueIdx Idealize.SL.Sem
open Idealize.ShloMosaic.Pipeline (Dat Cfg Window)

/-! ## A tile's matrix product at an index -/

theorem lhs_axis0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem lhs_axis1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
theorem rhs_axis0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
theorem rhs_axis1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- Row `p`, column `q` of a tile's product into the zero accumulator: the sum over the 128 shared features. -/
theorem tile_product {φ₁ φ₂ : FTy} (l : FVec Ideal S2000x128 φ₁) (r : FVec Ideal S128x128 φ₂) (p : Fin 2000) (q : Fin 128) :
    matmul dot_S2000x128_S128x128_S2000x128_1_0_0_1_n_n none l r (constant (F := Ideal) S2000x128 .f32 0x00000000#32) (ix2 p q)
      = ∑ k : Fin 128, l (ix2 p k) * r (ix2 k q) := by
  simp only [matmul]
  rw [Ideal.matmul_constant_zero_apply, ← Equiv.sum_comp (ValueIdx.contrEquiv1 dot_S2000x128_S128x128_S2000x128_1_0_0_1_n_n 128 rfl rfl).symm]
  refine Finset.sum_congr rfl fun k _ => ?_
  have hk := ValueIdx.contrEquiv1_symm_val dot_S2000x128_S128x128_S2000x128_1_0_0_1_n_n 128 rfl rfl k
  have el : dot_S2000x128_S128x128_S2000x128_1_0_0_1_n_n.lhsIdx (ix2 p q) ((ValueIdx.contrEquiv1 dot_S2000x128_S128x128_S2000x128_1_0_0_1_n_n 128 rfl rfl).symm k) = ix2 p k := funext fun a => Fin.ext (by
    match a with
    | ⟨0, _⟩ => exact lhs_axis0 _ _
    | ⟨1, _⟩ => exact (lhs_axis1 _ _).trans hk)
  have er : dot_S2000x128_S128x128_S2000x128_1_0_0_1_n_n.rhsIdx (ix2 p q) ((ValueIdx.contrEquiv1 dot_S2000x128_S128x128_S2000x128_1_0_0_1_n_n 128 rfl rfl).symm k) = ix2 k q := funext fun a => Fin.ext (by
    match a with
    | ⟨0, _⟩ => exact (rhs_axis0 _ _).trans hk
    | ⟨1, _⟩ => exact rhs_axis1 _ _)
  rw [el, er]

/-! ## The body's value at an index -/

/-- The stored tile at row `p`, feature `q`, from the five loaded blocks. -/
theorem payload_apply (x0 x1 : Vec Ideal S2000x128 .f32) (x2 x3 : Vec Ideal S128x128 .f32) (x4 : Vec Ideal S1x128 .f32)
    (p : Fin 2000) (q : Fin 128) :
    k1_pay1 (F := Ideal) x0 x1 x2 x3 x4 (ix2 p q)
      = max ((∑ k : Fin 128, x0 (ix2 p k) * x2 (ix2 k q)) + (∑ k : Fin 128, x1 (ix2 p k) * x3 (ix2 k q))
          + x4 (ix2 (0 : Fin 1) q)) zero32 := by
  unfold k1_pay1
  simp only [maximumf_apply, addf_apply, tile_product, broadcast_apply, shapeCast_self, truncf_apply]
  rw [broadcastTo_1b_ab_apply (a := 2000) (b := 128) x4 broadcasts_S1x128_S2000x128 p q]
  rfl

/-! ## The grid's schedule -/

theorem hz : (![0, 0] : Fin 2 → Nat) = fun _ => 0 := funext fun a => by fin_cases a <;> rfl

/-- The printed index maps, decided over the 20 points: the two row-tiled inputs and the output sit at block
    row `t`; the weights and the bias row are always block 0. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

theorem point_lt (t : Fin cfg1.N) : t.val < 20 := lt_of_lt_of_eq t.isLt N_1

/-- Row `p` of point `t`'s tile is row `2000·t + p` of the tables. -/
def tileRow (t : Fin cfg1.N) (p : Fin 2000) : Fin 40000 :=
  ⟨t.val * 2000 + p.val, by have := point_lt t; have := p.isLt; omega⟩

section

variable (V : (c : Dev nD) → (b : Ref sig .tc) → Buf (Elt Ideal) ((c : Thread nD τ).loc b))

/-! ## The five staged blocks, read where the tile's row and column say -/

abbrev blkAgg (c : Dev nD) (t : Fin cfg1.N) : Vec Ideal S2000x128 .f32 := iblk1 V c 0 t
abbrev blkH (c : Dev nD) (t : Fin cfg1.N) : Vec Ideal S2000x128 .f32 := iblk1 V c 1 t
abbrev blkWl (c : Dev nD) (t : Fin cfg1.N) : Vec Ideal S128x128 .f32 := iblk1 V c 2 t
abbrev blkWr (c : Dev nD) (t : Fin cfg1.N) : Vec Ideal S128x128 .f32 := iblk1 V c 3 t
abbrev blkB (c : Dev nD) (t : Fin cfg1.N) : Vec Ideal S1x128 .f32 := iblk1 V c 4 t

theorem readAgg (c : Dev nD) (t : Fin cfg1.N) (p : Fin 2000) (k : Fin 128) :
    blkAgg V c t (ix2 p k) = V c main_v43 (ix2 (tileRow t p) k) := by
  obtain ⟨e0, e1, -⟩ := idx_facts t
  show V c main_v43 (((cfg1.win 0).blk t).view.emb (ix2 p k)) = _
  refine congrArg (V c main_v43) (funext fun a => Fin.ext ?_)
  match a with
  | ⟨0, _⟩ => show win1_0.index t (0 : Fin 2) * 2000 + 1 * p.val = t.val * 2000 + p.val; omega
  | ⟨1, _⟩ => show win1_0.index t (1 : Fin 2) * 128 + 1 * k.val = k.val; omega

theorem readH (c : Dev nD) (t : Fin cfg1.N) (p : Fin 2000) (k : Fin 128) :
    blkH V c t (ix2 p k) = V c main_v24 (ix2 (tileRow t p) k) := by
  obtain ⟨-, -, e0, e1, -⟩ := idx_facts t
  show V c main_v24 (((cfg1.win 1).blk t).view.emb (ix2 p k)) = _
  refine congrArg (V c main_v24) (funext fun a => Fin.ext ?_)
  match a with
  | ⟨0, _⟩ => show win1_1.index t (0 : Fin 2) * 2000 + 1 * p.val = t.val * 2000 + p.val; omega
  | ⟨1, _⟩ => show win1_1.index t (1 : Fin 2) * 128 + 1 * k.val = k.val; omega

theorem readWl (c : Dev nD) (t : Fin cfg1.N) (k q : Fin 128) :
    blkWl V c t (ix2 k q) = V c main_arg5 (ix2 k q) := by
  obtain ⟨-, -, -, -, e0, e1, -⟩ := idx_facts t
  show V c main_arg5 (((cfg1.win 2).blk t).view.emb (ix2 k q)) = _
  refine congrArg (V c main_arg5) (funext fun a => Fin.ext ?_)
  match a with
  | ⟨0, _⟩ => show win1_2.index t (0 : Fin 2) * 128 + 1 * k.val = k.val; omega
  | ⟨1, _⟩ => show win1_2.index t (1 : Fin 2) * 128 + 1 * q.val = q.val; omega

theorem readWr (c : Dev nD) (t : Fin cfg1.N) (k q : Fin 128) :
    blkWr V c t (ix2 k q) = V c main_arg6 (ix2 k q) := by
  obtain ⟨-, -, -, -, -, -, e0, e1, -⟩ := idx_facts t
  show V c main_arg6 (((cfg1.win 3).blk t).view.emb (ix2 k q)) = _
  refine congrArg (V c main_arg6) (funext fun a => Fin.ext ?_)
  match a with
  | ⟨0, _⟩ => show win1_3.index t (0 : Fin 2) * 128 + 1 * k.val = k.val; omega
  | ⟨1, _⟩ => show win1_3.index t (1 : Fin 2) * 128 + 1 * q.val = q.val; omega

theorem readB (c : Dev nD) (t : Fin cfg1.N) (q : Fin 128) :
    blkB V c t (ix2 (0 : Fin 1) q) = V c main_v44 (ix2 (0 : Fin 1) q) := by
  obtain ⟨-, -, -, -, -, -, -, -, e0, e1, -⟩ := idx_facts t
  show V c main_v44 (((cfg1.win 4).blk t).view.emb (ix2 (0 : Fin 1) q)) = _
  refine congrArg (V c main_v44) (funext fun a => Fin.ext ?_)
  match a with
  | ⟨0, _⟩ => show win1_4.index t (0 : Fin 2) * 1 + 1 * 0 = 0; omega
  | ⟨1, _⟩ => show win1_4.index t (1 : Fin 2) * 128 + 1 * q.val = q.val; omega

/-- The tile's entry `(p, q)` lands at row `2000·t + p`, column `q` of the result table. -/
theorem emb_out (t : Fin cfg1.N) (p : Fin 2000) (q : Fin 128) :
    ((cfg1.win 5).blk t).view.emb (ix2 p q) = ix2 (tileRow t p) q := by
  obtain ⟨-, -, -, -, -, -, -, -, -, -, e0, e1⟩ := idx_facts t
  refine funext fun a => Fin.ext ?_
  match a with
  | ⟨0, _⟩ => show win1_5.index t (0 : Fin 2) * 2000 + 1 * p.val = t.val * 2000 + p.val; omega
  | ⟨1, _⟩ => show win1_5.index t (1 : Fin 2) * 128 + 1 * q.val = q.val; omega

/-! ## What a point writes back, the cover, the table -/

/-- WHAT POINT `t` WRITES BACK is block `t` of the layer function of the tables as the region finds them. -/
theorem flushed (c : Dev nD) (t : Fin cfg1.N) :
    (dat1 V c).flushed 5 t = ((cfg1.win 5).blk t).view.read (Elt Ideal)
      (layer (V c main_v43) (V c main_v24) (V c main_arg5) (V c main_arg6) (V c main_v44)) := by
  show (cfg1.win 5).cut (grid1.coords t) ((dat1 V c).after 5 t) = _
  rw [after1_5]
  unfold out1_5
  rw [View.canon_unit_zero hz]
  simp only [View.ld_unit_zero (S := S2000x128) hz, View.ld_unit_zero (S := S128x128) hz, View.ld_unit_zero (S := S1x128) hz]
  funext j
  obtain ⟨p, q, rfl⟩ : ∃ (p : Fin 2000) (q : Fin 128), j = ix2 p q := ⟨j 0, j 1, eq_ix2 j⟩
  refine (payload_apply (blkAgg V c t) (blkH V c t) (blkWl V c t) (blkWr V c t) (blkB V c t) p q).trans ?_
  show _ = layer (V c main_v43) (V c main_v24) (V c main_arg5) (V c main_arg6) (V c main_v44) (((cfg1.win 5).blk t).view.emb (ix2 p q))
  rw [emb_out t p q]
  exact congrArg₂ max
    (congrArg₂ (· + ·)
      (congrArg₂ (· + ·)
        (Finset.sum_congr rfl fun k _ => congrArg₂ (· * ·) (readAgg V c t p k) (readWl V c t k q))
        (Finset.sum_congr rfl fun k _ => congrArg₂ (· * ·) (readH V c t p k) (readWr V c t k q)))
      (readB V c t q))
    rfl

/-- An index of the table is in point `t`'s block iff each coordinate is in the block's range on its axis. -/
theorem mem_blk (t : Fin cfg1.N) (i : S40000x128.Idx) :
    i ∈ ((cfg1.win 5).blk t).view.set ↔ ∀ a : Fin 2, win1_5.index t a * S2000x128.size a ≤ (i a).val ∧ (i a).val < win1_5.index t a * S2000x128.size a + S2000x128.size a := by
  show i ∈ ((View.whole main_v45).slice (win1_5.rect t)).set ↔ _
  rw [View.set_slice_whole, Rect.mem_set_unit]
  exact Iff.rfl

/-- Row `r` of the table is in the block of point `r / 2000`: the 20 blocks cover the table. -/
theorem cover (i : S40000x128.Idx) : ∃ t : Fin cfg1.N, (cfg1.win 5).flush t = true ∧ i ∈ ((cfg1.win 5).blk t).view.set := by
  have hi0 : (i 0).val < 40000 := (i 0).isLt
  have hi1 : (i 1).val < 128 := (i 1).isLt
  have hN : (i 0).val / 2000 < cfg1.N := lt_of_lt_of_eq (by omega : (i 0).val / 2000 < 20) N_1.symm
  obtain ⟨-, -, -, -, -, -, -, -, -, -, e0, e1⟩ := idx_facts ⟨(i 0).val / 2000, hN⟩
  refine ⟨⟨(i 0).val / 2000, hN⟩, flush1_5 _, ?_⟩
  rw [mem_blk]
  intro a
  match a with
  | ⟨0, _⟩ =>
    show win1_5.index ⟨(i 0).val / 2000, hN⟩ (0 : Fin 2) * 2000 ≤ (i 0).val ∧ (i 0).val < win1_5.index ⟨(i 0).val / 2000, hN⟩ (0 : Fin 2) * 2000 + 2000
    rw [e0]; show (i 0).val / 2000 * 2000 ≤ (i 0).val ∧ (i 0).val < (i 0).val / 2000 * 2000 + 2000; omega
  | ⟨1, _⟩ =>
    show win1_5.index ⟨(i 0).val / 2000, hN⟩ (1 : Fin 2) * 128 ≤ (i 1).val ∧ (i 1).val < win1_5.index ⟨(i 0).val / 2000, hN⟩ (1 : Fin 2) * 128 + 128
    rw [e1]; omega

/-- THE TABLE after the region: the layer function of the tables the region was entered with. -/
theorem final (c : Dev nD) :
    (dat1 V c).arrAt 5 cfg1.N = layer (V c main_v43) (V c main_v24) (V c main_arg5) (V c main_arg6) (V c main_v44) :=
  (dat1 V c).arrAt_eq_of_cover 5 _ (fun t _ => flushed V c t) cover

end

end Cert.KernelIdeal.Layer1

end
-- ==== Proof.HeadRegion.lean ====
/-
  What the linear head's tiled kernel leaves in the output table.

  Point `t` of its 20-point grid stages rows `2000·t … 2000·t + 1999` of the second layer's table, the whole
  `[128, 64]` weight matrix and the bias row, and writes back the same rows of the `[40000, 64]` output. Its body
  computes, for row `p` of the tile and output feature `q`, `Σ_k h(p,k)·W(k,q) + b(0,q)`: the product by the matrix
  unit into a zero accumulator, which on the extended reals is the plain sum over the 128 features. A tile's row
  `p` is row `2000·t + p` of the table, so each point writes back its block of ONE function of the whole tables,
  `Cert.Sage.head`, and the 20 blocks cover the output.
-/
import proofs.«163185_j34600256537253_1_alg».proof.Proof.Gen.KernelIdeal.Frame
import proofs.«163185_j34600256537253_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.HeadRegion

open Cert.KernelIdeal Cert.KernelIdeal.Gen Cert.Sage
open Idealize.ShloMosaic Idealize.ShloMosaic.TcCoe Idealize.ShloMosaic.ValueIdx Idealize.SL.Sem
open Idealize.ShloMosaic.Pipeline (Dat Cfg Window)

/-! ## A tile's matrix product at an index -/

theorem lhs_axis0 (i : S2000x64.Idx) (q : dot_S2000x128_S128x64_S2000x64_1_0_0_1_n_n.contr.Idx) :
    (dot_S2000x128_S128x64_S2000x64_1_0_0_1_n_n.lhsIdx i q 0).val = (i 0).val := by
  unfold DotDims.lhsIdx
  rw [dif_neg (show ¬(0 : Fin S2000x128.rank) ∈ dot_S2000x128_S128x64_S2000x64_1_0_0_1_n_n.lhsBatch by decide), dif_pos (show (0 : Fin S2000x128.rank) ∈ dot_S2000x128_S128x64_S2000x64_1_0_0_1_n_n.lhsNonContracting by decide)]
  rfl
theorem lhs_axis1 (i : S2000x64.Idx) (q : dot_S2000x128_S128x64_S2000x64_1_0_0_1_n_n.contr.Idx) :
    (dot_S2000x128_S128x64_S2000x64_1_0_0_1_n_n.lhsIdx i q 1).val = (q ⟨0, by decide⟩).val :=
  dot_S2000x128_S128x64_S2000x64_1_0_0_1_n_n.lhsIdx_val_of_single rfl i q
theorem rhs_axis0 (i : S2000x64.Idx) (q : dot_S2000x128_S128x64_S2000x64_1_0_0_1_n_n.contr.Idx) :
    (dot_S2000x128_S128x64_S2000x64_1_0_0_1_n_n.rhsIdx i q 0).val = (q ⟨0, by decide⟩).val :=
  dot_S2000x128_S128x64_S2000x64_1_0_0_1_n_n.rhsIdx_val_of_single rfl i q
theorem rhs_axis1 (i : S2000x64.Idx) (q : dot_S2000x128_S128x64_S2000x64_1_0_0_1_n_n.contr.Idx) :
    (dot_S2000x128_S128x64_S2000x64_1_0_0_1_n_n.rhsIdx i q 1).val = (i 1).val := by
  unfold DotDims.rhsIdx
  rw [dif_neg (show ¬(1 : Fin S128x64.rank) ∈ dot_S2000x128_S128x64_S2000x64_1_0_0_1_n_n.rhsBatch by decide), dif_pos (show (1 : Fin S128x64.rank) ∈ dot_S2000x128_S128x64_S2000x64_1_0_0_1_n_n.rhsNonContracting by decide)]
  rfl

/-- Row `p`, column `q` of a tile's product into the zero accumulator: the sum over the 128 shared features. -/
theorem tile_product {φ₁ φ₂ : FTy} (l : FVec Ideal S2000x128 φ₁) (r : FVec Ideal S128x64 φ₂) (p : Fin 2000) (q : Fin 64) :
    matmul dot_S2000x128_S128x64_S2000x64_1_0_0_1_n_n none l r (constant (F := Ideal) S2000x64 .f32 0x00000000#32) (ix2 p q)
      = ∑ k : Fin 128, l (ix2 p k) * r (ix2 k q) := by
  simp only [matmul]
  rw [Ideal.matmul_constant_zero_apply, ← Equiv.sum_comp (ValueIdx.contrEquiv1 dot_S2000x128_S128x64_S2000x64_1_0_0_1_n_n 128 rfl rfl).symm]
  refine Finset.sum_congr rfl fun k _ => ?_
  have hk := ValueIdx.contrEquiv1_symm_val dot_S2000x128_S128x64_S2000x64_1_0_0_1_n_n 128 rfl rfl k
  have el : dot_S2000x128_S128x64_S2000x64_1_0_0_1_n_n.lhsIdx (ix2 p q) ((ValueIdx.contrEquiv1 dot_S2000x128_S128x64_S2000x64_1_0_0_1_n_n 128 rfl rfl).symm k) = ix2 p k := funext fun a => Fin.ext (by
    match a with
    | ⟨0, _⟩ => exact lhs_axis0 _ _
    | ⟨1, _⟩ => exact (lhs_axis1 _ _).trans hk)
  have er : dot_S2000x128_S128x64_S2000x64_1_0_0_1_n_n.rhsIdx (ix2 p q) ((ValueIdx.contrEquiv1 dot_S2000x128_S128x64_S2000x64_1_0_0_1_n_n 128 rfl rfl).symm k) = ix2 k q := funext fun a => Fin.ext (by
    match a with
    | ⟨0, _⟩ => exact (rhs_axis0 _ _).trans hk
    | ⟨1, _⟩ => exact rhs_axis1 _ _)
  rw [el, er]

/-! ## The body's value at an index -/

/-- The stored tile at row `p`, output feature `q`, from the three loaded blocks. -/
theorem payload_apply (x0 : Vec Ideal S2000x128 .f32) (x1 : Vec Ideal S128x64 .f32) (x2 : Vec Ideal S1x64 .f32)
    (p : Fin 2000) (q : Fin 64) :
    k2_pay1 (F := Ideal) x0 x1 x2 (ix2 p q)
      = (∑ k : Fin 128, x0 (ix2 p k) * x1 (ix2 k q)) + x2 (ix2 (0 : Fin 1) q) := by
  unfold k2_pay1
  simp only [addf_apply, tile_product, shapeCast_self, truncf_apply]
  rw [broadcastTo_1b_ab_apply (a := 2000) (b := 64) x2 broadcasts_S1x64_S2000x64 p q]

/-! ## The grid's schedule -/

theorem hz : (![0, 0] : Fin 2 → Nat) = fun _ => 0 := funext fun a => by fin_cases a <;> rfl

/-- The printed index maps, decided over the 20 points: the row-tiled input and the output sit at block row
    `t`; the weight matrix and the bias row are always block 0. -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

theorem point_lt (t : Fin cfg2.N) : t.val < 20 := lt_of_lt_of_eq t.isLt N_2

/-- Row `p` of point `t`'s tile is row `2000·t + p` of the tables. -/
def tileRow (t : Fin cfg2.N) (p : Fin 2000) : Fin 40000 :=
  ⟨t.val * 2000 + p.val, by have := point_lt t; have := p.isLt; omega⟩

section

variable (V : (c : Dev nD) → (b : Ref sig .tc) → Buf (Elt Ideal) ((c : Thread nD τ).loc b))

/-! ## The three staged blocks, read where the tile's row and column say -/

abbrev blkH (c : Dev nD) (t : Fin cfg2.N) : Vec Ideal S2000x128 .f32 := iblk2 V c 0 t
abbrev blkW (c : Dev nD) (t : Fin cfg2.N) : Vec Ideal S128x64 .f32 := iblk2 V c 1 t
abbrev blkB (c : Dev nD) (t : Fin cfg2.N) : Vec Ideal S1x64 .f32 := iblk2 V c 2 t

theorem readH (c : Dev nD) (t : Fin cfg2.N) (p : Fin 2000) (k : Fin 128) :
    blkH V c t (ix2 p k) = V c main_v45 (ix2 (tileRow t p) k) := by
  obtain ⟨e0, e1, -⟩ := idx_facts t
  show V c main_v45 (((cfg2.win 0).blk t).view.emb (ix2 p k)) = _
  refine congrArg (V c main_v45) (funext fun a => Fin.ext ?_)
  match a with
  | ⟨0, _⟩ => show win2_0.index t (0 : Fin 2) * 2000 + 1 * p.val = t.val * 2000 + p.val; omega
  | ⟨1, _⟩ => show win2_0.index t (1 : Fin 2) * 128 + 1 * k.val = k.val; omega

theorem readW (c : Dev nD) (t : Fin cfg2.N) (k : Fin 128) (q : Fin 64) :
    blkW V c t (ix2 k q) = V c main_arg8 (ix2 k q) := by
  obtain ⟨-, -, e0, e1, -⟩ := idx_facts t
  show V c main_arg8 (((cfg2.win 1).blk t).view.emb (ix2 k q)) = _
  refine congrArg (V c main_arg8) (funext fun a => Fin.ext ?_)
  match a with
  | ⟨0, _⟩ => show win2_1.index t (0 : Fin 2) * 128 + 1 * k.val = k.val; omega
  | ⟨1, _⟩ => show win2_1.index t (1 : Fin 2) * 64 + 1 * q.val = q.val; omega

theorem readB (c : Dev nD) (t : Fin cfg2.N) (q : Fin 64) :
    blkB V c t (ix2 (0 : Fin 1) q) = V c main_v46 (ix2 (0 : Fin 1) q) := by
  obtain ⟨-, -, -, -, e0, e1, -⟩ := idx_facts t
  show V c main_v46 (((cfg2.win 2).blk t).view.emb (ix2 (0 : Fin 1) q)) = _
  refine congrArg (V c main_v46) (funext fun a => Fin.ext ?_)
  match a with
  | ⟨0, _⟩ => show win2_2.index t (0 : Fin 2) * 1 + 1 * 0 = 0; omega
  | ⟨1, _⟩ => show win2_2.index t (1 : Fin 2) * 64 + 1 * q.val = q.val; omega

/-- The tile's entry `(p, q)` lands at row `2000·t + p`, column `q` of the output table. -/
theorem emb_out (t : Fin cfg2.N) (p : Fin 2000) (q : Fin 64) :
    ((cfg2.win 3).blk t).view.emb (ix2 p q) = ix2 (tileRow t p) q := by
  obtain ⟨-, -, -, -, -, -, e0, e1⟩ := idx_facts t
  refine funext fun a => Fin.ext ?_
  match a with
  | ⟨0, _⟩ => show win2_3.index t (0 : Fin 2) * 2000 + 1 * p.val = t.val * 2000 + p.val; omega
  | ⟨1, _⟩ => show win2_3.index t (1 : Fin 2) * 64 + 1 * q.val = q.val; omega

/-! ## What a point writes back, the cover, the table -/

/-- WHAT POINT `t` WRITES BACK is block `t` of the head function of the tables as the region finds them. -/
theorem flushed (c : Dev nD) (t : Fin cfg2.N) :
    (dat2 V c).flushed 3 t = ((cfg2.win 3).blk t).view.read (Elt Ideal)
      (head (V c main_v45) (V c main_arg8) (V c main_v46)) := by
  show (cfg2.win 3).cut (grid2.coords t) ((dat2 V c).after 3 t) = _
  rw [after2_3]
  unfold out2_3
  rw [View.canon_unit_zero hz]
  simp only [View.ld_unit_zero (S := S2000x128) hz, View.ld_unit_zero (S := S128x64) hz, View.ld_unit_zero (S := S1x64) hz]
  funext j
  obtain ⟨p, q, rfl⟩ : ∃ (p : Fin 2000) (q : Fin 64), j = ix2 p q := ⟨j 0, j 1, eq_ix2 j⟩
  refine (payload_apply (blkH V c t) (blkW V c t) (blkB V c t) p q).trans ?_
  show _ = head (V c main_v45) (V c main_arg8) (V c main_v46) (((cfg2.win 3).blk t).view.emb (ix2 p q))
  rw [emb_out t p q]
  exact congrArg₂ (· + ·)
    (Finset.sum_congr rfl fun k _ => congrArg₂ (· * ·) (readH V c t p k) (readW V c t k q))
    (readB V c t q)

/-- An index of the table is in point `t`'s block iff each coordinate is in the block's range on its axis. -/
theorem mem_blk (t : Fin cfg2.N) (i : S40000x64.Idx) :
    i ∈ ((cfg2.win 3).blk t).view.set ↔ ∀ a : Fin 2, win2_3.index t a * S2000x64.size a ≤ (i a).val ∧ (i a).val < win2_3.index t a * S2000x64.size a + S2000x64.size a := by
  show i ∈ ((View.whole main_v47).slice (win2_3.rect t)).set ↔ _
  rw [View.set_slice_whole, Rect.mem_set_unit]
  exact Iff.rfl

/-- Row `r` of the output is in the block of point `r / 2000`: the 20 blocks cover it. -/
theorem cover (i : S40000x64.Idx) : ∃ t : Fin cfg2.N, (cfg2.win 3).flush t = true ∧ i ∈ ((cfg2.win 3).blk t).view.set := by
  have hi0 : (i 0).val < 40000 := (i 0).isLt
  have hi1 : (i 1).val < 64 := (i 1).isLt
  have hN : (i 0).val / 2000 < cfg2.N := lt_of_lt_of_eq (by omega : (i 0).val / 2000 < 20) N_2.symm
  obtain ⟨-, -, -, -, -, -, e0, e1⟩ := idx_facts ⟨(i 0).val / 2000, hN⟩
  refine ⟨⟨(i 0).val / 2000, hN⟩, flush2_3 _, ?_⟩
  rw [mem_blk]
  intro a
  match a with
  | ⟨0, _⟩ =>
    show win2_3.index ⟨(i 0).val / 2000, hN⟩ (0 : Fin 2) * 2000 ≤ (i 0).val ∧ (i 0).val < win2_3.index ⟨(i 0).val / 2000, hN⟩ (0 : Fin 2) * 2000 + 2000
    rw [e0]; show (i 0).val / 2000 * 2000 ≤ (i 0).val ∧ (i 0).val < (i 0).val / 2000 * 2000 + 2000; omega
  | ⟨1, _⟩ =>
    show win2_3.index ⟨(i 0).val / 2000, hN⟩ (1 : Fin 2) * 64 ≤ (i 1).val ∧ (i 1).val < win2_3.index ⟨(i 0).val / 2000, hN⟩ (1 : Fin 2) * 64 + 64
    rw [e1]; omega

/-- THE OUTPUT after the region: the head function of the tables the region was entered with. -/
theorem final (c : Dev nD) :
    (dat2 V c).arrAt 3 cfg2.N = head (V c main_v45) (V c main_arg8) (V c main_v46) :=
  (dat2 V c).arrAt_eq_of_cover 3 _ (fun t _ => flushed V c t) cover

end

end Cert.KernelIdeal.HeadRegion

end
-- ==== Proof.KernelNet.lean ====
/-
  The tiled program's result is `Cert.Sage.net` of its ten inputs.

  Its @main is three stretches of host operations, each followed by a kernel region; the contents of the
  TensorCore's buffers at the six boundaries are a fold from the launch memory. Read at the result buffer, from
  the end: the last region leaves `head` of the three tables it was entered with; of those, the second layer's
  table is what the second region left, `layer` of ITS entry tables, among them the neighbour mean the second
  stretch computed (`aggr`) from the first region's table; and that table is `layer` of the first stretch's
  neighbour mean of the input features. What each stretch computes and what rides through untouched is the table
  of boundary reads (BoundaryReads); what each region leaves is its own module (Layer0, Layer1, HeadRegion). Here
  the pieces are joined, with one more fact: a bias vector reshaped to one row is the row `row128` / `row64`.
-/
import proofs.«163185_j34600256537253_1_alg».proof.Proof.BoundaryReads
import proofs.«163185_j34600256537253_1_alg».proof.Proof.Layer0
import proofs.«163185_j34600256537253_1_alg».proof.Proof.Layer1
import proofs.«163185_j34600256537253_1_alg».proof.Proof.HeadRegion
import Idealize.ShloMosaic.Lib.Pipeline.Value

set_option maxRecDepth 16384

noncomputable section

namespace Cert.KernelIdeal.NetValue

open Cert.KernelIdeal Cert.KernelIdeal.Gen Cert.Sage
open Idealize.ShloMosaic Idealize.ShloMosaic.TcCoe Idealize.ShloMosaic.ValueIdx Idealize.SL.Sem

/-! ## A bias vector reshaped to one row -/

theorem reshape_row128 (b : (⟨S128, .f32⟩ : BufTy).Contents (Elt Ideal)) :
    shapeCast S1x128 b shapeCasts_S128_S1x128 = row128 b := by
  funext j
  refine shapeCast_apply b shapeCasts_S128_S1x128 j (ix1 (n := 128) (j 1)) ?_
  rewrite [Shape.rowMajor_val_one, Shape.rowMajor_val_two]
  have h0 : (j 0).val < 1 := (j 0).isLt
  show (j 1).val = (j 0).val * 128 + (j 1).val
  omega

theorem reshape_row64 (b : (⟨S64, .f32⟩ : BufTy).Contents (Elt Ideal)) :
    shapeCast S1x64 b shapeCasts_S64_S1x64 = row64 b := by
  funext j
  refine shapeCast_apply b shapeCasts_S64_S1x64 j (ix1 (n := 64) (j 1)) ?_
  rewrite [Shape.rowMajor_val_one, Shape.rowMajor_val_two]
  have h0 : (j 0).val < 1 := (j 0).isLt
  show (j 1).val = (j 0).val * 64 + (j 1).val
  omega

variable (m : (ℓ : Loc nD τ sig) → Buf (Elt Ideal) ℓ) (ρ : Dev nD → PrngReg)

/-! ## The regions' tables -/

/-- After the first region its table is the first layer of the inputs. -/
theorem r0_hidden (c : Dev nD) : W2 m ρ c (Proc.devRef .tc main_v24)
    = hidden1 (m ((c : Thread nD τ).loc main_arg0)) (m ((c : Thread nD τ).loc main_arg1)) (m ((c : Thread nD τ).loc main_arg2)) (m ((c : Thread nD τ).loc main_arg3)) (m ((c : Thread nD τ).loc main_arg4)) := by
  refine (W2_arr m ρ c 5).trans ((Layer0.final (V1 m ρ) c).trans ?_)
  show layer (W1 m ρ c (Proc.devRef .tc main_v22)) (W1 m ρ c (Proc.devRef .tc main_arg0)) (W1 m ρ c (Proc.devRef .tc main_arg2))
    (W1 m ρ c (Proc.devRef .tc main_arg3)) (W1 m ρ c (Proc.devRef .tc main_v23)) = _
  rw [s0_agg, s0_arg0, s0_arg2, s0_arg3, s0_bias, reshape_row128]
  rfl

/-- After the second region its table is the second layer of the first layer's table. -/
theorem r1_hidden (c : Dev nD) : W4 m ρ c (Proc.devRef .tc main_v45)
    = hidden2 (hidden1 (m ((c : Thread nD τ).loc main_arg0)) (m ((c : Thread nD τ).loc main_arg1)) (m ((c : Thread nD τ).loc main_arg2)) (m ((c : Thread nD τ).loc main_arg3)) (m ((c : Thread nD τ).loc main_arg4))) (m ((c : Thread nD τ).loc main_arg1)) (m ((c : Thread nD τ).loc main_arg5)) (m ((c : Thread nD τ).loc main_arg6)) (m ((c : Thread nD τ).loc main_arg7)) := by
  refine (W4_arr m ρ c 5).trans ((Layer1.final (V3 m ρ) c).trans ?_)
  show layer (W3 m ρ c (Proc.devRef .tc main_v43)) (W3 m ρ c (Proc.devRef .tc main_v24)) (W3 m ρ c (Proc.devRef .tc main_arg5))
    (W3 m ρ c (Proc.devRef .tc main_arg6)) (W3 m ρ c (Proc.devRef .tc main_v44)) = _
  rw [s1_agg, s1_hidden, s1_arg5, s1_arg6, s1_bias, r0_hidden, r0_src, r0_dst, r0_arg5, r0_arg6, r0_arg7, reshape_row128]
  rfl

/-- THE RESULT: after the last region the result buffer holds the network of the ten inputs as launched. -/
theorem result (c : Dev nD) : W6 m ρ c (Proc.devRef .tc main_v47)
    = net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (W6_arr m ρ c 3).trans ((HeadRegion.final (V5 m ρ) c).trans ?_)
  show head (W5 m ρ c (Proc.devRef .tc main_v45)) (W5 m ρ c (Proc.devRef .tc main_arg8)) (W5 m ρ c (Proc.devRef .tc main_v46)) = _
  rw [s2_hidden, s2_arg8, s2_bias, r1_hidden, r1_arg8, r1_arg9, reshape_row64]
  rfl

end Cert.KernelIdeal.NetValue

end
-- ==== Proof.RefNet.lean ====
/-
  The whole-array program computes `Cert.Sage.net` of its inputs.

  Read one operation at a time (the generated stages `val_main_vN`), each of its two layers is, at node `p` and
  feature `q`, the maximum with zero of the two `dot_general` sums over the 128 shared features plus the bias
  entry `q`: that is `Cert.Sage.layer` of the stage before it, and the head is `Cert.Sage.head`. Its two
  aggregations are the one function `Cert.Sage.aggr` of the table before them and of the edge list's two rows:
  the same operations with the same literals, so those equations hold by unfolding.
-/
import proofs.«163185_j34600256537253_1_alg».proof.Proof.Gen.ReferenceIdeal.Read
import proofs.«163185_j34600256537253_1_alg».proof.Proof.Net
import Idealize.ShloMosaic.Lib.Pipeline.Value
import Idealize.ShloMosaic.Lib.ValueIdx
import Idealize.ShloMosaic.PureOps.Ideal.Laws

set_option maxRecDepth 16384

noncomputable section

namespace Cert.ReferenceIdeal.RefValue

open Cert.ReferenceIdeal Cert.ReferenceIdeal.Gen Cert.ReferenceIdeal.Read Cert.Sage
open Idealize.ShloMosaic Idealize.ShloMosaic.TcCoe Idealize.ShloMosaic.ValueIdx Idealize.SL.Sem

/-! ## The index maps of the stages, at node `p` and feature `q` -/

theorem lidx23 (p : Fin 40000) (q k : Fin 128) : lidx_main_v23 (ix2 p q) k = ix2 p k :=
  funext fun a => Fin.ext (by match a with | ⟨0, _⟩ => rfl | ⟨1, _⟩ => rfl)
theorem ridx23 (p : Fin 40000) (q k : Fin 128) : ridx_main_v23 (ix2 p q) k = ix2 k q :=
  funext fun a => Fin.ext (by match a with | ⟨0, _⟩ => rfl | ⟨1, _⟩ => rfl)
theorem lidx24 (p : Fin 40000) (q k : Fin 128) : lidx_main_v24 (ix2 p q) k = ix2 p k :=
  funext fun a => Fin.ext (by match a with | ⟨0, _⟩ => rfl | ⟨1, _⟩ => rfl)
theorem ridx24 (p : Fin 40000) (q k : Fin 128) : ridx_main_v24 (ix2 p q) k = ix2 k q :=
  funext fun a => Fin.ext (by match a with | ⟨0, _⟩ => rfl | ⟨1, _⟩ => rfl)
theorem lidx49 (p : Fin 40000) (q k : Fin 128) : lidx_main_v49 (ix2 p q) k = ix2 p k :=
  funext fun a => Fin.ext (by match a with | ⟨0, _⟩ => rfl | ⟨1, _⟩ => rfl)
theorem ridx49 (p : Fin 40000) (q k : Fin 128) : ridx_main_v49 (ix2 p q) k = ix2 k q :=
  funext fun a => Fin.ext (by match a with | ⟨0, _⟩ => rfl | ⟨1, _⟩ => rfl)
theorem lidx50 (p : Fin 40000) (q k : Fin 128) : lidx_main_v50 (ix2 p q) k = ix2 p k :=
  funext fun a => Fin.ext (by match a with | ⟨0, _⟩ => rfl | ⟨1, _⟩ => rfl)
theorem ridx50 (p : Fin 40000) (q k : Fin 128) : ridx_main_v50 (ix2 p q) k = ix2 k q :=
  funext fun a => Fin.ext (by match a with | ⟨0, _⟩ => rfl | ⟨1, _⟩ => rfl)
theorem lidx56 (p : Fin 40000) (q : Fin 64) (k : Fin 128) : lidx_main_v56 (ix2 p q) k = ix2 p k :=
  funext fun a => Fin.ext (by match a with | ⟨0, _⟩ => rfl | ⟨1, _⟩ => rfl)
theorem ridx56 (p : Fin 40000) (q : Fin 64) (k : Fin 128) : ridx_main_v56 (ix2 p q) k = ix2 k q :=
  funext fun a => Fin.ext (by match a with | ⟨0, _⟩ => rfl | ⟨1, _⟩ => rfl)
/-- The first layer's bias, broadcast twice, read at `(p, q)`: entry `q` of the vector. -/
theorem bias27 (p : Fin 40000) (q : Fin 128) : idx_main_v26 (idx_main_v27 (ix2 p q)) = ix1 q :=
  funext fun a => Fin.ext (by match a with | ⟨0, _⟩ => rfl)
theorem bias53 (p : Fin 40000) (q : Fin 128) : idx_main_v52 (idx_main_v53 (ix2 p q)) = ix1 q :=
  funext fun a => Fin.ext (by match a with | ⟨0, _⟩ => rfl)
theorem bias58 (p : Fin 40000) (q : Fin 64) : idx_main_v57 (idx_main_v58 (ix2 p q)) = ix1 q :=
  funext fun a => Fin.ext (by match a with | ⟨0, _⟩ => rfl)

/-! ## The aggregations are the one function -/

theorem agg1_eq (x0 : (⟨S40000x128, .f32⟩ : BufTy).Contents (Elt Ideal)) (x1 : (⟨S2x640000, .i32⟩ : BufTy).Contents (Elt Ideal)) :
    val_main_v22 (F := Ideal) x0 x1 = aggr x0 (srcOf x1) (dstOf x1) := rfl

theorem agg2_eq (x0 : (⟨S40000x128, .f32⟩ : BufTy).Contents (Elt Ideal)) (x1 : (⟨S2x640000, .i32⟩ : BufTy).Contents (Elt Ideal))
    (x2 x3 : (⟨S128x128, .f32⟩ : BufTy).Contents (Elt Ideal)) (x4 : (⟨S128, .f32⟩ : BufTy).Contents (Elt Ideal)) :
    val_main_v48 (F := Ideal) x0 x1 x2 x3 x4 = aggr (val_main_v29 (F := Ideal) x0 x1 x2 x3 x4) (srcOf x1) (dstOf x1) := rfl

/-! ## The layers and the head, index by index -/

theorem layer1_eq (x0 : (⟨S40000x128, .f32⟩ : BufTy).Contents (Elt Ideal)) (x1 : (⟨S2x640000, .i32⟩ : BufTy).Contents (Elt Ideal))
    (x2 x3 : (⟨S128x128, .f32⟩ : BufTy).Contents (Elt Ideal)) (x4 : (⟨S128, .f32⟩ : BufTy).Contents (Elt Ideal)) :
    val_main_v29 (F := Ideal) x0 x1 x2 x3 x4 = layer (val_main_v22 (F := Ideal) x0 x1) x0 x2 x3 (row128 x4) := by
  funext i
  obtain ⟨p, q, rfl⟩ : ∃ (p : Fin 40000) (q : Fin 128), i = ix2 p q := ⟨i 0, i 1, eq_ix2 i⟩
  rw [val_main_v29_apply, val_main_v28_apply, val_main_v25_apply, val_main_v23_apply, val_main_v24_apply,
    val_main_v27_apply, val_main_v26_apply, val_main_call0_v0_apply, val_main_call0_cst_apply]
  simp only [lidx23, ridx23, lidx24, ridx24, bias27]
  rfl

theorem layer2_eq (x0 : (⟨S40000x128, .f32⟩ : BufTy).Contents (Elt Ideal)) (x1 : (⟨S2x640000, .i32⟩ : BufTy).Contents (Elt Ideal))
    (x2 x3 : (⟨S128x128, .f32⟩ : BufTy).Contents (Elt Ideal)) (x4 : (⟨S128, .f32⟩ : BufTy).Contents (Elt Ideal))
    (x5 x6 : (⟨S128x128, .f32⟩ : BufTy).Contents (Elt Ideal)) (x7 : (⟨S128, .f32⟩ : BufTy).Contents (Elt Ideal)) :
    val_main_v55 (F := Ideal) x0 x1 x2 x3 x4 x5 x6 x7
      = layer (val_main_v48 (F := Ideal) x0 x1 x2 x3 x4) (val_main_v29 (F := Ideal) x0 x1 x2 x3 x4) x5 x6 (row128 x7) := by
  funext i
  obtain ⟨p, q, rfl⟩ : ∃ (p : Fin 40000) (q : Fin 128), i = ix2 p q := ⟨i 0, i 1, eq_ix2 i⟩
  rw [val_main_v55_apply, val_main_v54_apply, val_main_v51_apply, val_main_v49_apply, val_main_v50_apply,
    val_main_v53_apply, val_main_v52_apply, val_main_call1_v0_apply, val_main_call1_cst_apply]
  simp only [lidx49, ridx49, lidx50, ridx50, bias53]
  rfl

theorem head_eq (x0 : (⟨S40000x128, .f32⟩ : BufTy).Contents (Elt Ideal)) (x1 : (⟨S2x640000, .i32⟩ : BufTy).Contents (Elt Ideal))
    (x2 x3 : (⟨S128x128, .f32⟩ : BufTy).Contents (Elt Ideal)) (x4 : (⟨S128, .f32⟩ : BufTy).Contents (Elt Ideal))
    (x5 x6 : (⟨S128x128, .f32⟩ : BufTy).Contents (Elt Ideal)) (x7 : (⟨S128, .f32⟩ : BufTy).Contents (Elt Ideal))
    (x8 : (⟨S128x64, .f32⟩ : BufTy).Contents (Elt Ideal)) (x9 : (⟨S64, .f32⟩ : BufTy).Contents (Elt Ideal)) :
    val_main_v59 (F := Ideal) x0 x1 x2 x3 x4 x5 x6 x7 x8 x9
      = head (val_main_v55 (F := Ideal) x0 x1 x2 x3 x4 x5 x6 x7) x8 (row64 x9) := by
  funext i
  obtain ⟨p, q, rfl⟩ : ∃ (p : Fin 40000) (q : Fin 64), i = ix2 p q := ⟨i 0, i 1, eq_ix2 i⟩
  rw [val_main_v59_apply, val_main_v56_apply, val_main_v58_apply, val_main_v57_apply]
  simp only [lidx56, ridx56, bias58]
  rfl

/-! ## The result -/

/-- The whole-array program's result term is the network of its ten inputs. -/
theorem result (x0 : (⟨S40000x128, .f32⟩ : BufTy).Contents (Elt Ideal)) (x1 : (⟨S2x640000, .i32⟩ : BufTy).Contents (Elt Ideal))
    (x2 x3 : (⟨S128x128, .f32⟩ : BufTy).Contents (Elt Ideal)) (x4 : (⟨S128, .f32⟩ : BufTy).Contents (Elt Ideal))
    (x5 x6 : (⟨S128x128, .f32⟩ : BufTy).Contents (Elt Ideal)) (x7 : (⟨S128, .f32⟩ : BufTy).Contents (Elt Ideal))
    (x8 : (⟨S128x64, .f32⟩ : BufTy).Contents (Elt Ideal)) (x9 : (⟨S64, .f32⟩ : BufTy).Contents (Elt Ideal)) :
    val_main_v59 (F := Ideal) x0 x1 x2 x3 x4 x5 x6 x7 x8 x9 = net x0 x1 x2 x3 x4 x5 x6 x7 x8 x9 := by
  rw [head_eq, layer2_eq, agg2_eq, layer1_eq, agg1_eq]
  rfl

end Cert.ReferenceIdeal.RefValue

end
-- ==== Proof.lean ====
/-
  The certificate of the tiled GraphSAGE network (two mean-aggregation layers with ReLU and a linear head, the
  three matrix stages as kernels tiled over 2000-row blocks of the 40000 nodes) against its whole-array
  reference: over the extended reals the two compute the same `[40000, 64]` table.

  Both run the same neighbour-mean aggregation on the host, operation for operation (`Cert.Sage.aggr`), so it
  enters the proof as one function applied to equal tables and is never opened. What differs is how a layer
  `max(agg·Wl + h·Wr + b, 0)` and the head `h·W + b` are computed: the reference by whole `dot_general`s, the
  kernels tile by tile on the matrix unit into a zero accumulator, operands narrowed to bf16 (the identity on
  the extended reals). Index by index both are the same sums over the 128 features, added in the same order
  (`Cert.Sage.layer`, `Cert.Sage.head`), and the 20 tiles of each kernel cover its table, so each kernel's
  table is that function of the tables it was entered with (Layer0 / Layer1 / HeadRegion). Folding the buffer
  contents through @main's three host stretches and three regions (KernelNet) gives the kernel program's result
  as `Cert.Sage.net` of the ten inputs; reading the reference's generated run one operation at a time (RefNet)
  gives the same function of its inputs. No law of the extended reals is used and the inputs' finiteness is
  never opened.

  The frames of the two kernel programs are the generated ones; the reference's frame is its generated run with
  the result dropped; the idealization's ledger is empty.
-/
import proofs.«163185_j34600256537253_1_alg».proof.Defs
import proofs.«163185_j34600256537253_1_alg».proof.Proof.Gen.Kernel
import proofs.«163185_j34600256537253_1_alg».proof.Proof.Gen.Kernel.Skeleton
import proofs.«163185_j34600256537253_1_alg».proof.Proof.Gen.Kernel.Launch
import proofs.«163185_j34600256537253_1_alg».proof.Proof.Gen.Kernel.Points
import proofs.«163185_j34600256537253_1_alg».proof.Proof.Gen.Kernel.Frame
import proofs.«163185_j34600256537253_1_alg».proof.Proof.Gen.KernelIdeal
import proofs.«163185_j34600256537253_1_alg».proof.Proof.Gen.KernelIdeal.Skeleton
import proofs.«163185_j34600256537253_1_alg».proof.Proof.Gen.KernelIdeal.Launch
import proofs.«163185_j34600256537253_1_alg».proof.Proof.Gen.KernelIdeal.Points
import proofs.«163185_j34600256537253_1_alg».proof.Proof.Gen.KernelIdeal.Frame
import proofs.«163185_j34600256537253_1_alg».proof.Proof.Gen.ReferenceIdeal
import proofs.«163185_j34600256537253_1_alg».proof.Proof.Gen.ReferenceIdeal.Run
import proofs.«163185_j34600256537253_1_alg».proof.Proof.Gen.ReferenceIdeal.Read
import proofs.«163185_j34600256537253_1_alg».proof.Proof.Gen.Pre_finite_inputs
import proofs.«163185_j34600256537253_1_alg».proof.Proof.KernelRun
import proofs.«163185_j34600256537253_1_alg».proof.Proof.KernelNet
import proofs.«163185_j34600256537253_1_alg».proof.Proof.RefNet
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference terminates with its arguments unchanged: its generated run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the ten inputs both programs end with the result table at the network of those
    inputs: the kernel program by its run with the result kept and the fold through @main, the reference by its
    generated run read one operation at a time. -/
theorem algebraic : Cert.algebraic_KernelIdeal_ReferenceIdeal := by
  intro m ρ m' ρ' _ hagree
  refine ⟨fun c => Cert.Sage.net (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))
      (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · exact (θ_run Cert.KernelIdeal.defs _ _).mono
      (fun r h c => ⟨(h c).1.trans (Cert.KernelIdeal.NetValue.result m ρ c), (h c).2⟩)
      (Cert.KernelIdeal.Run.run_result m ρ)
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6, h7, h8, h9⟩ := hagree c
    rw [Cert.ReferenceIdeal.Read.val_main_v59_eq, Cert.ReferenceIdeal.RefValue.result, h0, h1, h2, h3, h4, h5, h6, h7, h8, h9]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
